-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1024 : Shape := ⟨2, ![1, 1024]⟩
abbrev S139x128 : Shape := ⟨2, ![139, 128]⟩
abbrev S_ : Shape := ⟨0, ![]⟩

class Facts : Prop where
  bcast_S_S139x128 : S_.BroadcastsInDim S139x128 (![] : Fin 0 → Fin S139x128.rank)
  reducesTo_S139x128_S_d0_1 : S139x128.ReducesTo [0, 1] S_
  h_S_ : 0 < S_.numel

variable [Facts]

def fn {F : FTy → Type} [FloatOps F] (main_arg0 : IVec S1x1024 32) (main_arg1 : IVec S1x1024 32) (main_arg2 : IVec S1x1024 32) (main_arg3 : IVec S1x1024 32) (main_arg4 : IVec S1x1024 32) (main_arg5 : FVec F S139x128 .f32) : IVec S_ 1 :=
  let main_v0 : FVec F S139x128 .f32 := Host.absf main_arg5
  let main_cst : FVec F S_ .f32 := constant S_ .f32 0x7F800000#32
  let main_v1 : FVec F S139x128 .f32 := broadcastInDim S139x128 ![] bcast_S_S139x128 main_cst
  let main_v2 : IVec S139x128 1 := cmpf .olt main_v0 main_v1
  let main_c : IVec S_ 1 := constantI S_ 1 1#1
  let main_v3 : IVec S_ 1 := (fun x v => Host.reduce IntOp.andi x v reducesTo_S139x128_S_d0_1 h_S_) main_v2 main_c
  main_v3
-- ==== Kernel.lean ====
abbrev S1x1024 : Shape := ⟨2, ![1, 1024]⟩
abbrev S139x128 : Shape := ⟨2, ![139, 128]⟩
abbrev S1x1024x1024x128 : Shape := ⟨4, ![1, 1024, 1024, 128]⟩
abbrev S1x128 : Shape := ⟨2, ![1, 128]⟩
abbrev S1x128x128x128 : Shape := ⟨4, ![1, 128, 128, 128]⟩
abbrev S128 : Shape := ⟨1, ![128]⟩
abbrev S128x1x1 : Shape := ⟨3, ![128, 1, 1]⟩
abbrev S1x128x1 : Shape := ⟨3, ![1, 128, 1]⟩
abbrev S128x128x1 : Shape := ⟨3, ![128, 128, 1]⟩
abbrev S66x128 : Shape := ⟨2, ![66, 128]⟩
abbrev S6x128 : Shape := ⟨2, ![6, 128]⟩
abbrev S1x1x66 : Shape := ⟨3, ![1, 1, 66]⟩
abbrev S128x128x66 : Shape := ⟨3, ![128, 128, 66]⟩
abbrev S1x1x6 : Shape := ⟨3, ![1, 1, 6]⟩
abbrev S128x128x6 : Shape := ⟨3, ![128, 128, 6]⟩
abbrev S16384x66 : Shape := ⟨2, ![16384, 66]⟩
abbrev S16384x128 : Shape := ⟨2, ![16384, 128]⟩
abbrev S16384x6 : Shape := ⟨2, ![16384, 6]⟩
abbrev S128x128x128 : Shape := ⟨3, ![128, 128, 128]⟩
abbrev S1x1x128 : Shape := ⟨3, ![1, 1, 128]⟩

abbrev nBuf : Space → Nat
  | .hbm => 7
  | .vmem => 23
  | .smem => 0
  | _ => 0

abbrev bufTy : (tb : Table) → Fin (tcTables nBuf tb) → BufTy
  | .hbm, ⟨0, _⟩ => ⟨S1x1024, .i32⟩
  | .hbm, ⟨1, _⟩ => ⟨S1x1024, .i32⟩
  | .hbm, ⟨2, _⟩ => ⟨S1x1024, .i32⟩
  | .hbm, ⟨3, _⟩ => ⟨S1x1024, .i32⟩
  | .hbm, ⟨4, _⟩ => ⟨S1x1024, .i32⟩
  | .hbm, ⟨5, _⟩ => ⟨S139x128, .f32⟩
  | .hbm, ⟨6, _⟩ => ⟨S1x1024x1024x128, .f32⟩
  | .local _ .vmem, ⟨0, _⟩ => ⟨S1x128, .i32⟩
  | .local _ .vmem, ⟨1, _⟩ => ⟨S1x128, .i32⟩
  | .local _ .vmem, ⟨2, _⟩ => ⟨S1x128, .i32⟩
  | .local _ .vmem, ⟨3, _⟩ => ⟨S1x128, .i32⟩
  | .local _ .vmem, ⟨4, _⟩ => ⟨S1x128, .i32⟩
  | .local _ .vmem, ⟨5, _⟩ => ⟨S1x128, .i32⟩
  | .local _ .vmem, ⟨6, _⟩ => ⟨S1x128, .i32⟩
  | .local _ .vmem, ⟨7, _⟩ => ⟨S1x128, .i32⟩
  | .local _ .vmem, ⟨8, _⟩ => ⟨S1x128, .i32⟩
  | .local _ .vmem, ⟨9, _⟩ => ⟨S1x128, .i32⟩
  | .local _ .vmem, ⟨10, _⟩ => ⟨S1x128, .i32⟩
  | .local _ .vmem, ⟨11, _⟩ => ⟨S1x128, .i32⟩
  | .local _ .vmem, ⟨12, _⟩ => ⟨S1x128, .i32⟩
  | .local _ .vmem, ⟨13, _⟩ => ⟨S1x128, .i32⟩
  | .local _ .vmem, ⟨14, _⟩ => ⟨S1x128, .i32⟩
  | .local _ .vmem, ⟨15, _⟩ => ⟨S1x128, .i32⟩
  | .local _ .vmem, ⟨16, _⟩ => ⟨S1x128, .i32⟩
  | .local _ .vmem, ⟨17, _⟩ => ⟨S1x128, .i32⟩
  | .local _ .vmem, ⟨18, _⟩ => ⟨S1x128, .i32⟩
  | .local _ .vmem, ⟨19, _⟩ => ⟨S1x128, .i32⟩
  | .local _ .vmem, ⟨20, _⟩ => ⟨S139x128, .f32⟩
  | .local _ .vmem, ⟨21, _⟩ => ⟨S1x128x128x128, .f32⟩
  | .local _ .vmem, ⟨22, _⟩ => ⟨S1x128x128x128, .f32⟩
  | _, _ => ⟨S1x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x128 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x128 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S139x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x128x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  inb_S1x128_S1x128_0_0 : ∀ a, (![0, 0] : Fin 2 → Nat) a + S1x128.size a ≤ S1x128.size a
  h_S1x128 : 0 < S1x128.numel
  shapeCasts_S1x128_S128 : S1x128.ShapeCasts S128
  shapeCasts_S128_S128x1x1 : S128.ShapeCasts S128x1x1
  shapeCasts_S128_S1x128x1 : S128.ShapeCasts S1x128x1
  broadcasts_S128x1x1_S128x128x1 : S128x1x1.Broadcasts S128x128x1
  broadcasts_S1x128x1_S128x128x1 : S1x128x1.Broadcasts S128x128x1
  inb_S139x128_S66x128_0_0 : ∀ a, (![0, 0] : Fin 2 → Nat) a + S66x128.size a ≤ S139x128.size a
  h_S66x128 : 0 < S66x128.numel
  bitsLt_bf16_f32 : FTy.bits .bf16 < FTy.bits .f32
  inb_S139x128_S66x128_66_0 : ∀ a, (![66, 0] : Fin 2 → Nat) a + S66x128.size a ≤ S139x128.size a
  inb_S139x128_S1x128_132_0 : ∀ a, (![132, 0] : Fin 2 → Nat) a + S1x128.size a ≤ S139x128.size a
  inb_S139x128_S6x128_133_0 : ∀ a, (![133, 0] : Fin 2 → Nat) a + S6x128.size a ≤ S139x128.size a
  h_S6x128 : 0 < S6x128.numel
  iota_S1x1x66_d2_w32 : S1x1x66.Iotas .tc 32 [2]
  broadcasts_S128x128x1_S128x128x66 : S128x128x1.Broadcasts S128x128x66
  broadcasts_S1x1x66_S128x128x66 : S1x1x66.Broadcasts S128x128x66
  natLt_1_32 : 1 < 32
  iota_S1x1x6_d2_w32 : S1x1x6.Iotas .tc 32 [2]
  broadcasts_S128x128x1_S128x128x6 : S128x128x1.Broadcasts S128x128x6
  broadcasts_S1x1x6_S128x128x6 : S1x1x6.Broadcasts S128x128x6
  shapeCasts_S128x128x66_S16384x66 : S128x128x66.ShapeCasts S16384x66
  shapeCasts_S128x128x6_S16384x6 : S128x128x6.ShapeCasts S16384x6
  shapeCasts_S16384x128_S128x128x128 : S16384x128.ShapeCasts S128x128x128
  shapeCasts_S128_S1x1x128 : S128.ShapeCasts S1x1x128
  broadcasts_S128x128x1_S128x128x128 : S128x128x1.Broadcasts S128x128x128
  broadcasts_S1x1x128_S128x128x128 : S1x1x128.Broadcasts S128x128x128
  inb_S1x128x128x128_S1x128x128x128_0_0_0_0 : ∀ a, (![0, 0, 0, 0] : Fin 4 → Nat) a + S1x128x128x128.size a ≤ S1x128x128x128.size a
  h_S1x128x128x128 : 0 < S1x128x128x128.numel
  shapeCasts_S1x128x128x128_S128x128x128 : S1x128x128x128.ShapeCasts S128x128x128
  shapeCasts_S128x128x128_S1x128x128x128 : S128x128x128.ShapeCasts S1x128x128x128
  dot_S16384x66_S66x128_S16384x128_1_0_0_1_n_n_wf : DotDims.WF S16384x66 S66x128 S16384x128 [1] [0] [0] [1] [] []
  dot_S16384x6_S6x128_S16384x128_1_0_0_1_n_n_wf : DotDims.WF S16384x6 S6x128 S16384x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128.size a ≤ S1x1024.size a
  hwx0_0 : ∀ i : grid0.Coords, EltTy.bits .i32 = 32 ∨ (Rect.block (s := S1x1024) S1x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x1024.size a
  hwx0_1 : ∀ i : grid0.Coords, EltTy.bits .i32 = 32 ∨ (Rect.block (s := S1x1024) S1x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x1024.size a
  hwx0_2 : ∀ i : grid0.Coords, EltTy.bits .i32 = 32 ∨ (Rect.block (s := S1x1024) S1x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x1024.size a
  hwx0_3 : ∀ i : grid0.Coords, EltTy.bits .i32 = 32 ∨ (Rect.block (s := S1x1024) S1x128.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x1024.size a
  hwx0_4 : ∀ i : grid0.Coords, EltTy.bits .i32 = 32 ∨ (Rect.block (s := S1x1024) S1x128.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x1024.size a
  hwx0_5 : ∀ i : grid0.Coords, EltTy.bits .i32 = 32 ∨ (Rect.block (s := S1x1024) S1x128.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x1024.size a
  hwx0_6 : ∀ i : grid0.Coords, EltTy.bits .i32 = 32 ∨ (Rect.block (s := S1x1024) S1x128.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x1024.size a
  hwx0_7 : ∀ i : grid0.Coords, EltTy.bits .i32 = 32 ∨ (Rect.block (s := S1x1024) S1x128.size (cc0_transform_7 i) (hinb0_7 i)).WholeWords (EltTy.packing .i32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x1024.size a
  hwx0_8 : ∀ i : grid0.Coords, EltTy.bits .i32 = 32 ∨ (Rect.block (s := S1x1024) S1x128.size (cc0_transform_8 i) (hinb0_8 i)).WholeWords (EltTy.packing .i32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x1024.size a
  hwx0_9 : ∀ i : grid0.Coords, EltTy.bits .i32 = 32 ∨ (Rect.block (s := S1x1024) S1x128.size (cc0_transform_9 i) (hinb0_9 i)).WholeWords (EltTy.packing .i32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S139x128.size a ≤ S139x128.size a
  hwx0_10 : ∀ i : grid0.Coords, EltTy.bits .f32 = 32 ∨ (Rect.block (s := S139x128) S139x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x128x128x128.size a ≤ S1x1024x1024x128.size a
  hwx0_11 : ∀ i : grid0.Coords, EltTy.bits .f32 = 32 ∨ (Rect.block (s := S1x1024x1024x128) S1x128x128x128.size (cc0_transform_11 i) (hinb0_11 i)).WholeWords (EltTy.packing .f32)

variable [Facts₀]

def dot_S16384x66_S66x128_S16384x128_1_0_0_1_n_n : DotDims S16384x66 S66x128 S16384x128 where
  lhsContracting := [1]
  rhsContracting := [0]
  lhsNonContracting := [0]
  rhsNonContracting := [1]
  lhsBatch := []
  rhsBatch := []
  wf := dot_S16384x66_S66x128_S16384x128_1_0_0_1_n_n_wf
def dot_S16384x6_S6x128_S16384x128_1_0_0_1_n_n : DotDims S16384x6 S6x128 S16384x128 where
  lhsContracting := [1]
  rhsContracting := [0]
  lhsNonContracting := [0]
  rhsNonContracting := [1]
  lhsBatch := []
  rhsBatch := []
  wf := dot_S16384x6_S6x128_S16384x128_1_0_0_1_n_n_wf

abbrev win0_0 : Pipeline.Window sig grid0 :=
  Pipeline.Window.ofSpec (Memref.whole main_arg0) S1x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S1x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S1x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg2) S1x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg4) S1x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg4) S1x128.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg5) S139x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0) S1x128x128x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S1x1024 : Shape := ⟨2, ![1, 1024]⟩
abbrev S139x128 : Shape := ⟨2, ![139, 128]⟩
abbrev S1x1024x1 : Shape := ⟨3, ![1, 1024, 1]⟩
abbrev S1x1x1024 : Shape := ⟨3, ![1, 1, 1024]⟩
abbrev S1x1024x1024 : Shape := ⟨3, ![1, 1024, 1024]⟩
abbrev S_ : Shape := ⟨0, ![]⟩
abbrev S1x1024x1024x1 : Shape := ⟨4, ![1, 1024, 1024, 1]⟩
abbrev S1x1024x1024x128 : Shape := ⟨4, ![1, 1024, 1024, 128]⟩
abbrev S1x128 : Shape := ⟨2, ![1, 128]⟩
abbrev S128 : Shape := ⟨1, ![128]⟩
abbrev S1x1x1x128 : Shape := ⟨4, ![1, 1, 1, 128]⟩

abbrev nBuf : Space → Nat
  | .hbm => 129
  | .vmem => 0
  | .smem => 0
  | _ => 0

abbrev hbmTy0_0 (i : Nat) : BufTy := match i % 128 with
  | 0 => ⟨S1x1024, .i32⟩
  | 1 => ⟨S1x1024, .i32⟩
  | 2 => ⟨S1x1024, .i32⟩
  | 3 => ⟨S1x1024, .i32⟩
  | 4 => ⟨S1x1024, .i32⟩
  | 5 => ⟨S139x128, .f32⟩
  | 6 => ⟨S1x1024x1, .i32⟩
  | 7 => ⟨S1x1x1024, .i32⟩
  | 8 => ⟨S1x1024x1024, .i32⟩
  | 9 => ⟨S1x1024x1024, .i32⟩
  | 10 => ⟨S1x1024x1024, .i1⟩
  | 11 => ⟨S1x1024x1, .i32⟩
  | 12 => ⟨S1x1x1024, .i32⟩
  | 13 => ⟨S1x1024x1024, .i32⟩
  | 14 => ⟨S1x1024x1024, .i32⟩
  | 15 => ⟨S1x1024x1024, .i1⟩
  | 16 => ⟨S1x1024x1, .i32⟩
  | 17 => ⟨S1x1x1024, .i32⟩
  | 18 => ⟨S1x1024x1024, .i32⟩
  | 19 => ⟨S1x1024x1024, .i32⟩
  | 20 => ⟨S1x1024x1024, .i1⟩
  | 21 => ⟨S1x1024x1, .i32⟩
  | 22 => ⟨S1x1x1024, .i32⟩
  | 23 => ⟨S1x1024x1024, .i32⟩
  | 24 => ⟨S1x1024x1024, .i32⟩
  | 25 => ⟨S1x1024x1024, .i32⟩
  | 26 => ⟨S_, .i32⟩
  | 27 => ⟨S_, .i32⟩
  | 28 => ⟨S_, .i32⟩
  | 29 => ⟨S1x1024x1024, .i32⟩
  | 30 => ⟨S1x1024x1024, .i32⟩
  | 31 => ⟨S_, .i32⟩
  | 32 => ⟨S1x1024x1024, .i32⟩
  | 33 => ⟨S1x1024x1024, .i32⟩
  | 34 => ⟨S_, .i32⟩
  | 35 => ⟨S1x1024x1024, .i32⟩
  | 36 => ⟨S1x1024x1024, .i32⟩
  | 37 => ⟨S_, .i32⟩
  | 38 => ⟨S_, .i32⟩
  | 39 => ⟨S1x1024x1024, .i32⟩
  | 40 => ⟨S1x1024x1024, .i32⟩
  | 41 => ⟨S1x1024x1024, .i1⟩
  | 42 => ⟨S1x1024x1, .i32⟩
  | 43 => ⟨S1x1x1024, .i32⟩
  | 44 => ⟨S1x1024x1024, .i32⟩
  | 45 => ⟨S1x1024x1024, .i32⟩
  | 46 => ⟨S1x1024x1024, .i32⟩
  | 47 => ⟨S_, .i32⟩
  | 48 => ⟨S_, .i32⟩
  | 49 => ⟨S_, .i32⟩
  | 50 => ⟨S1x1024x1024, .i32⟩
  | 51 => ⟨S1x1024x1024, .i32⟩
  | 52 => ⟨S_, .i32⟩
  | 53 => ⟨S1x1024x1024, .i32⟩
  | 54 => ⟨S1x1024x1024, .i32⟩
  | 55 => ⟨S_, .i32⟩
  | 56 => ⟨S1x1024x1024, .i32⟩
  | 57 => ⟨S1x1024x1024, .i32⟩
  | 58 => ⟨S_, .i32⟩
  | 59 => ⟨S_, .i32⟩
  | 60 => ⟨S1x1024x1024, .i32⟩
  | 61 => ⟨S1x1024x1024, .i32⟩
  | 62 => ⟨S1x1024x1, .i32⟩
  | 63 => ⟨S1x1x1024, .i32⟩
  | 64 => ⟨S1x1024x1024, .i32⟩
  | 65 => ⟨S1x1024x1024, .i32⟩
  | 66 => ⟨S1x1024x1024, .i32⟩
  | 67 => ⟨S_, .i32⟩
  | 68 => ⟨S_, .i32⟩
  | 69 => ⟨S_, .i32⟩
  | 70 => ⟨S1x1024x1024, .i32⟩
  | 71 => ⟨S1x1024x1024, .i32⟩
  | 72 => ⟨S_, .i32⟩
  | 73 => ⟨S1x1024x1024, .i32⟩
  | 74 => ⟨S1x1024x1024, .i32⟩
  | 75 => ⟨S_, .i32⟩
  | 76 => ⟨S1x1024x1024, .i32⟩
  | 77 => ⟨S1x1024x1024, .i32⟩
  | 78 => ⟨S_, .i32⟩
  | 79 => ⟨S_, .i32⟩
  | 80 => ⟨S1x1024x1024, .i32⟩
  | 81 => ⟨S1x1024x1024, .i32⟩
  | 82 => ⟨S_, .i32⟩
  | 83 => ⟨S1x1024x1024, .i32⟩
  | 84 => ⟨S1x1024x1024, .i32⟩
  | 85 => ⟨S_, .i32⟩
  | 86 => ⟨S1x1024x1024, .i32⟩
  | 87 => ⟨S1x1024x1024, .i1⟩
  | 88 => ⟨S_, .i32⟩
  | 89 => ⟨S1x1024x1024, .i32⟩
  | 90 => ⟨S1x1024x1024, .i32⟩
  | 91 => ⟨S1x1024x1024, .i32⟩
  | 92 => ⟨S1x1024x1024x1, .i32⟩
  | 93 => ⟨S1x1024x1024x128, .f32⟩
  | 94 => ⟨S_, .i32⟩
  | 95 => ⟨S1x1024x1024, .i32⟩
  | 96 => ⟨S1x1024x1024, .i32⟩
  | 97 => ⟨S_, .i32⟩
  | 98 => ⟨S1x1024x1024, .i32⟩
  | 99 => ⟨S1x1024x1024, .i1⟩
  | 100 => ⟨S_, .i32⟩
  | 101 => ⟨S1x1024x1024, .i32⟩
  | 102 => ⟨S1x1024x1024, .i32⟩
  | 103 => ⟨S1x1024x1024, .i32⟩
  | 104 => ⟨S1x1024x1024x1, .i32⟩
  | 105 => ⟨S1x1024x1024x128, .f32⟩
  | 106 => ⟨S1x1024x1024x128, .f32⟩
  | 107 => ⟨S1x1024x1024x1, .i1⟩
  | 108 => ⟨S1x1024x1024x1, .f32⟩
  | 109 => ⟨S1x128, .f32⟩
  | 110 => ⟨S128, .f32⟩
  | 111 => ⟨S1x1x1x128, .f32⟩
  | 112 => ⟨S1x1024x1024x128, .f32⟩
  | 113 => ⟨S1x1024x1024x128, .f32⟩
  | 114 => ⟨S1x1024x1024x128, .f32⟩
  | 115 => ⟨S1x1024x1024x128, .f32⟩
  | 116 => ⟨S_, .i32⟩
  | 117 => ⟨S1x1024x1024, .i32⟩
  | 118 => ⟨S1x1024x1024, .i32⟩
  | 119 => ⟨S_, .i32⟩
  | 120 => ⟨S1x1024x1024, .i32⟩
  | 121 => ⟨S1x1024x1024, .i1⟩
  | 122 => ⟨S_, .i32⟩
  | 123 => ⟨S1x1024x1024, .i32⟩
  | 124 => ⟨S1x1024x1024, .i32⟩
  | 125 => ⟨S1x1024x1024, .i32⟩
  | 126 => ⟨S1x1024x1024x1, .i32⟩
  | 127 => ⟨S1x1024x1024x128, .f32⟩
  | _ => ⟨S1x1024, .i32⟩

abbrev hbmTy0_1 (i : Nat) : BufTy := match i % 128 with
  | 0 => ⟨S1x1024x1024x128, .f32⟩
  | _ => ⟨S1x1024, .i32⟩

abbrev hbmTy (i : Nat) : BufTy := match i / 128 with
  | 0 => hbmTy0_0 i
  | 1 => hbmTy0_1 i
  | _ => ⟨S1x1024, .i32⟩

abbrev bufTy : (tb : Table) → Fin (tcTables nBuf tb) → BufTy
  | .hbm, ⟨i, _⟩ => hbmTy i
  | _, _ => ⟨S1x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_c_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v20 : Ref sig .tc := ⟨.hbm, 33, rfl⟩
abbrev main_c_1 : Ref sig .tc := ⟨.hbm, 34, rfl⟩
abbrev main_v21 : Ref sig .tc := ⟨.hbm, 35, rfl⟩
abbrev main_v22 : Ref sig .tc := ⟨.hbm, 36, rfl⟩
abbrev main_c_2 : Ref sig .tc := ⟨.hbm, 37, rfl⟩
abbrev main_call1_v0 : Ref sig .tc := ⟨.hbm, 38, rfl⟩
abbrev main_call1_v1 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_3 : Ref sig .tc := ⟨.hbm, 47, rfl⟩
abbrev main_c_4 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_v30 : Ref sig .tc := ⟨.hbm, 54, rfl⟩
abbrev main_c_5 : Ref sig .tc := ⟨.hbm, 55, rfl⟩
abbrev main_v31 : Ref sig .tc := ⟨.hbm, 56, rfl⟩
abbrev main_v32 : Ref sig .tc := ⟨.hbm, 57, rfl⟩
abbrev main_c_6 : Ref sig .tc := ⟨.hbm, 58, rfl⟩
abbrev main_call3_v0 : Ref sig .tc := ⟨.hbm, 59, rfl⟩
abbrev main_call3_v1 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_c_7 : Ref sig .tc := ⟨.hbm, 67, rfl⟩
abbrev main_c_8 : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_call4_v3 : Ref sig .tc := ⟨.hbm, 72, rfl⟩
abbrev main_call4_v4 : Ref sig .tc := ⟨.hbm, 73, rfl⟩
abbrev main_v39 : Ref sig .tc := ⟨.hbm, 74, rfl⟩
abbrev main_c_9 : Ref sig .tc := ⟨.hbm, 75, rfl⟩
abbrev main_v40 : Ref sig .tc := ⟨.hbm, 76, rfl⟩
abbrev main_v41 : Ref sig .tc := ⟨.hbm, 77, rfl⟩
abbrev main_c_10 : Ref sig .tc := ⟨.hbm, 78, rfl⟩
abbrev main_call5_v0 : Ref sig .tc := ⟨.hbm, 79, rfl⟩
abbrev main_call5_v1 : Ref sig .tc := ⟨.hbm, 80, rfl⟩
abbrev main_v42 : Ref sig .tc := ⟨.hbm, 81, rfl⟩
abbrev main_c_11 : Ref sig .tc := ⟨.hbm, 82, rfl⟩
abbrev main_v43 : Ref sig .tc := ⟨.hbm, 83, rfl⟩
abbrev main_v44 : Ref sig .tc := ⟨.hbm, 84, rfl⟩
abbrev main_c_12 : Ref sig .tc := ⟨.hbm, 85, rfl⟩
abbrev main_v45 : Ref sig .tc := ⟨.hbm, 86, rfl⟩
abbrev main_v46 : Ref sig .tc := ⟨.hbm, 87, rfl⟩
abbrev main_c_13 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_c_14 : Ref sig .tc := ⟨.hbm, 94, rfl⟩
abbrev main_v52 : Ref sig .tc := ⟨.hbm, 95, rfl⟩
abbrev main_v53 : Ref sig .tc := ⟨.hbm, 96, rfl⟩
abbrev main_c_15 : Ref sig .tc := ⟨.hbm, 97, rfl⟩
abbrev main_v54 : Ref sig .tc := ⟨.hbm, 98, rfl⟩
abbrev main_v55 : Ref sig .tc := ⟨.hbm, 99, rfl⟩
abbrev main_c_16 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_c_17 : Ref sig .tc := ⟨.hbm, 116, rfl⟩
abbrev main_v71 : Ref sig .tc := ⟨.hbm, 117, rfl⟩
abbrev main_v72 : Ref sig .tc := ⟨.hbm, 118, rfl⟩
abbrev main_c_18 : Ref sig .tc := ⟨.hbm, 119, rfl⟩
abbrev main_v73 : Ref sig .tc := ⟨.hbm, 120, rfl⟩
abbrev main_v74 : Ref sig .tc := ⟨.hbm, 121, rfl⟩
abbrev main_c_19 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩

abbrev nD : Nat := 1
abbrev τ : Topo := Topo.v7x

variable {F : FTy → Type} [FloatOps F]

class Facts₀ : Prop where
  bcast_S1x1024_S1x1024x1_0_1 : S1x1024.BroadcastsInDim S1x1024x1 (![0, 1] : Fin 2 → Fin S1x1024x1.rank)
  bcast_S1x1024_S1x1x1024_0_2 : S1x1024.BroadcastsInDim S1x1x1024 (![0, 2] : Fin 2 → Fin S1x1x1024.rank)
  bcast_S1x1024x1_S1x1024x1024_0_1_2 : S1x1024x1.BroadcastsInDim S1x1024x1024 (![0, 1, 2] : Fin 3 → Fin S1x1024x1024.rank)
  bcast_S1x1x1024_S1x1024x1024_0_1_2 : S1x1x1024.BroadcastsInDim S1x1024x1024 (![0, 1, 2] : Fin 3 → Fin S1x1024x1024.rank)
  bcast_S_S1x1024x1024 : S_.BroadcastsInDim S1x1024x1024 (![] : Fin 0 → Fin S1x1024x1024.rank)
  bcast_S1x1024x1024_S1x1024x1024x1_0_1_2 : S1x1024x1024.BroadcastsInDim S1x1024x1024x1 (![0, 1, 2] : Fin 3 → Fin S1x1024x1024x1.rank)
  slices_S139x128_S1x128_132_0 : S139x128.Slices ![132, 0] S1x128
  shapeCasts_S1x128_S128 : S1x128.ShapeCasts S128
  bcast_S128_S1x1x1x128_3 : S128.BroadcastsInDim S1x1x1x128 (![3] : Fin 1 → Fin S1x1x1x128.rank)
  bcast_S1x1024x1024x1_S1x1024x1024x128_0_1_2_3 : S1x1024x1024x1.BroadcastsInDim S1x1024x1024x128 (![0, 1, 2, 3] : Fin 4 → Fin S1x1024x1024x128.rank)
  bcast_S1x1x1x128_S1x1024x1024x128_0_1_2_3 : S1x1x1x128.BroadcastsInDim S1x1024x1024x128 (![0, 1, 2, 3] : Fin 4 → Fin S1x1024x1024x128.rank)
  gather_S139x128_S1x1024x1024x1_S1x1024x1024x128_3_0_n_n_0_3_1128_wf : GatherDims.WF S139x128 S1x1024x1024x1 S1x1024x1024x128 [3] [0] [] [0] [] 3 ![1, 128]

variable [Facts₀]

def gather_S139x128_S1x1024x1024x1_S1x1024x1024x128_3_0_n_n_0_3_1128 : GatherDims S139x128 S1x1024x1024x1 S1x1024x1024x128 where
  offsetDims := [3]
  collapsedSliceDims := [0]
  operandBatchingDims := []
  startIndicesBatchingDims := []
  startIndexMap := [0]
  indexVectorDim := 3
  sliceSizes := ![1, 128]
  wf := gather_S139x128_S1x1024x1024x1_S1x1024x1024x128_3_0_n_n_0_3_1128_wf

class Facts : Prop extends Facts₀ where

variable [Facts]
-- ==== Proof.KernelRun.lean ====
/-
  The kernel body of the relative-position encoding, run once on whole staging buffers.

  The body loads ten blocks of 128 integer features (the row tile's and the column tile's sequence index, colour,
  entity, symmetry and token index), four row ranges of the weight table, forms the three class indices of every pair
  in the 128 × 128 tile, looks the classes' rows up as one-hot products, adds the entity row where the entities agree,
  and stores the 128 × 128 × 128 tile whole. Run symbolically, the body leaves every input buffer as it was and the
  output buffer with one stored piece, the tile; the piece is found by the run itself.
-/
import proofs.«416035_j8624294330880_2_alg».proof.Proof.Gen.Kernel.Launch
import proofs.«416035_j8624294330880_2_alg».proof.Proof.Gen.Kernel.Skeleton
import proofs.«416035_j8624294330880_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its one region -/

/-- A core's buffers when the region is entered: as launched (the program is the region alone). -/
abbrev V (c : Dev nD) (b : Ref sig .tc) : Buf (Elt F) ((c : Thread nD τ).loc b) := m ((c : Thread nD τ).loc b)

/-- The program up to the region is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not (a point that does
    not fetch has the block index of the point before), for any proof data whose array is the region-entry contents
    and whose body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The staging buffers at a point -/

/-- One staging buffer of the output window, through which its contents are stated. -/
abbrev VO : View sig .tc .vmem S1x128x128x128 .f32 := (Memref.whole cc0_stg11_0 : Memref sig .tc .vmem S1x128x128x128 .f32).view
abbrev ms_0 (t : Fin cfg0.N) : Memref sig .tc .vmem S1x128 .i32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x128 .i32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x128 .i32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x128 .i32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1x128 .i32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S1x128 .i32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S1x128 .i32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S1x128 .i32 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S1x128 .i32 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S1x128 .i32 := win0_9.stage (cfg0.slots t 9)
abbrev hs_9 (t : Fin cfg0.N) : (ms_9 t).IsWhole := hstage0_9 ((cfg0.slots t 9).cast nbuf0_9)
abbrev ms_10 (t : Fin cfg0.N) : Memref sig .tc .vmem S139x128 .f32 := win0_10.stage (cfg0.slots t 10)
abbrev hs_10 (t : Fin cfg0.N) : (ms_10 t).IsWhole := hstage0_10 ((cfg0.slots t 10).cast nbuf0_10)
abbrev ms_11 (t : Fin cfg0.N) : Memref sig .tc .vmem S1x128x128x128 .f32 := win0_11.stage (cfg0.slots t 11)
abbrev hs_11 (t : Fin cfg0.N) : (ms_11 t).IsWhole := hstage0_11 ((cfg0.slots t 11).cast nbuf0_11)

/-! ## The body on any whole staging buffers -/

set_option maxHeartbeats 4000000 in
/-- The pieces the body's stores leave in the output buffer (last first), with the proof that on whole staging buffers —
    the inputs' at their contents, the output's at anything — the body runs to the continuation holding the inputs'
    as they were and the output's with those pieces written. -/
noncomputable def kernelRun (c : Dev nD) (i : grid0.Coords) (arg2 : Memref sig .tc .vmem S1x128 .i32) (harg2 : arg2.IsWhole) (arg3 : Memref sig .tc .vmem S1x128 .i32) (harg3 : arg3.IsWhole) (arg4 : Memref sig .tc .vmem S1x128 .i32) (harg4 : arg4.IsWhole) (arg5 : Memref sig .tc .vmem S1x128 .i32) (harg5 : arg5.IsWhole) (arg6 : Memref sig .tc .vmem S1x128 .i32) (harg6 : arg6.IsWhole) (arg7 : Memref sig .tc .vmem S1x128 .i32) (harg7 : arg7.IsWhole) (arg8 : Memref sig .tc .vmem S1x128 .i32) (harg8 : arg8.IsWhole) (arg9 : Memref sig .tc .vmem S1x128 .i32) (harg9 : arg9.IsWhole) (arg10 : Memref sig .tc .vmem S1x128 .i32) (harg10 : arg10.IsWhole) (arg11 : Memref sig .tc .vmem S1x128 .i32) (harg11 : arg11.IsWhole) (arg12 : Memref sig .tc .vmem S139x128 .f32) (harg12 : arg12.IsWhole) (arg13 : Memref sig .tc .vmem S1x128x128x128 .f32) (harg13 : arg13.IsWhole)
    (x0 : Vec F S1x128 .i32) (x1 : Vec F S1x128 .i32) (x2 : Vec F S1x128 .i32) (x3 : Vec F S1x128 .i32) (x4 : Vec F S1x128 .i32) (x5 : Vec F S1x128 .i32) (x6 : Vec F S1x128 .i32) (x7 : Vec F S1x128 .i32) (x8 : Vec F S1x128 .i32) (x9 : Vec F S1x128 .i32) (x10 : Vec F S139x128 .f32) :
    { L : List (View.Piece (Elt F) S1x128x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L)) -∗ K ⟨⟩))
          ⊢ wp frame (wpE (defs₀ (F := F)) Variants.none c none) E (cc0__rel_pos_kernel i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__rel_pos_kernel_eq_skeleton]; unfold cc0__rel_pos_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg12.eq_unread hf10
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; iexact H11

end Cert.Kernel.Frm

end
-- ==== Proof.LibSharedFrame.lean ====
/-
  The frame run of a one-region TensorCore program whose pipeline hands ONE array to SEVERAL input windows.

  When every window has its own array, the launch deals each array whole to its window. When two input windows read one
  array (the same operand passed twice, with different index maps), the array's full share has to be divided among them;
  how it is divided is said once, as an entailment from the distinct buffers behind the arrays, each whole at the full
  share, to the pipeline's view of its arrays at the proof data's shares. Everything else about the run is as for
  distinct arrays: the body is run at every grid point from the staging buffers alone, the arrays end at what the
  write-backs compute, and every other unscoped buffer ends as the region found it.
-/
import Idealize.ShloMosaic.Lib.Pipeline.Frame

noncomputable section

namespace Idealize.ShloMosaic.Pipeline

open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Rounds
open TcCoe

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- The frame run for a pipeline whose windows may share arrays. The proof data's invariant is the core's scoped
    buffers that are no staging buffer (the body may use them and need not describe them); `hsplit` says how the
    buffers behind the arrays, whole at the region-entry contents, make the pipeline's arrays at the data's shares. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hΦ : ∀ c t, (dats p c).Φ t
      = (scopedRest (Ix := Unit) (Name := ℕ) (U := UR sig nD τ) (Lvl := ℕ) (Val := Val) (cfgs p).spec c : sProp 𝕄)) :
    θ_run (Pipeline.defs (fun q => Cfg.toPCfg (Val := Val) (cfgs q)) defs₀) (onTc main) (s₀ m g)
      (FramePost cfgs dats p V) := by
  classical
  exact θ_run_region_noSem_shared cfgs dats () hinj p hw emb₁ defs₀ 𝒱₀ m g main hbody hne harr hstage howed
    (initOf (cells cfgs hinj) (launchToks cfgs hinj)) .rfl V hmain hsplit
    (fun _ => iprop(emp)) (fun _ => iprop(emp))
    (fun c => unscopedRest (Ix := Unit) (Name := ℕ) (U := UR sig nD τ) (Lvl := ℕ) (cfgs p).spec c (V c))
    (fun c => by
      iintro H
      isplitr
      · iempintro
      iexact H)
    (fun c => by
      rw [hΦ]
      iintro ⟨-, H⟩
      iexact H)
    (fun c => by
      rw [hΦ]
      iintro H
      isplitr
      · iempintro
      iexact H)
    (fun c s => ∀ b ∈ restRefs sig (cfgs p).spec, s.mem ((c.tc : Thread nD τ).loc b) = V c b)
    (fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (fun s h => h)

end Idealize.ShloMosaic.Pipeline

end
-- ==== Proof.KernelFrame.lean ====
/-
  The frame of the relative-position encoding's program: from any memory with zero semaphore counters every weakly fair
  execution terminates without a fault, the six argument arrays end unchanged, and the result array ends at what the
  write-backs of the 64 tiles compute.

  Each integer argument is handed to the kernel twice, once blocked by the tile's row and once by its column, so two
  input windows share each of those arrays: the array's full share is divided in two halves, one per window (both only
  read it). The weight table and the result have a window of their own and are held whole. The body's run on whole
  staging buffers gives the body obligation at every grid point; the launch for shared arrays gives the run.
-/
import proofs.«416035_j8624294330880_2_alg».proof.Proof.KernelRun
import proofs.«416035_j8624294330880_2_alg».proof.Proof.LibSharedFrame

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in the output buffer -/

/-- The run's pieces tile the output block (one store of the whole tile), so they cover it. -/
theorem cover (c : Dev nD) (i : grid0.Coords) (arg2 : Memref sig .tc .vmem S1x128 .i32) (harg2 : arg2.IsWhole) (arg3 : Memref sig .tc .vmem S1x128 .i32) (harg3 : arg3.IsWhole) (arg4 : Memref sig .tc .vmem S1x128 .i32) (harg4 : arg4.IsWhole) (arg5 : Memref sig .tc .vmem S1x128 .i32) (harg5 : arg5.IsWhole) (arg6 : Memref sig .tc .vmem S1x128 .i32) (harg6 : arg6.IsWhole) (arg7 : Memref sig .tc .vmem S1x128 .i32) (harg7 : arg7.IsWhole) (arg8 : Memref sig .tc .vmem S1x128 .i32) (harg8 : arg8.IsWhole) (arg9 : Memref sig .tc .vmem S1x128 .i32) (harg9 : arg9.IsWhole) (arg10 : Memref sig .tc .vmem S1x128 .i32) (harg10 : arg10.IsWhole) (arg11 : Memref sig .tc .vmem S1x128 .i32) (harg11 : arg11.IsWhole) (arg12 : Memref sig .tc .vmem S139x128 .f32) (harg12 : arg12.IsWhole) (arg13 : Memref sig .tc .vmem S1x128x128x128 .f32) (harg13 : arg13.IsWhole)
    (x0 : Vec F S1x128 .i32) (x1 : Vec F S1x128 .i32) (x2 : Vec F S1x128 .i32) (x3 : Vec F S1x128 .i32) (x4 : Vec F S1x128 .i32) (x5 : Vec F S1x128 .i32) (x6 : Vec F S1x128 .i32) (x7 : Vec F S1x128 .i32) (x8 : Vec F S1x128 .i32) (x9 : Vec F S1x128 .i32) (x10 : Vec F S139x128 .f32) (y : S1x128x128x128.Idx) :
    ∃ pc ∈ (kernelRun c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).1, y ∈ pc.1.set :=
  View.cover_of_tiledL (kernelRun c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).1 S1x128x128x128.size (by sl_kernel_rfl) y

/-- What the run leaves in the output's staging buffer: its pieces read back. -/
def outBlk (c : Dev nD) (i : grid0.Coords) (arg2 : Memref sig .tc .vmem S1x128 .i32) (harg2 : arg2.IsWhole) (arg3 : Memref sig .tc .vmem S1x128 .i32) (harg3 : arg3.IsWhole) (arg4 : Memref sig .tc .vmem S1x128 .i32) (harg4 : arg4.IsWhole) (arg5 : Memref sig .tc .vmem S1x128 .i32) (harg5 : arg5.IsWhole) (arg6 : Memref sig .tc .vmem S1x128 .i32) (harg6 : arg6.IsWhole) (arg7 : Memref sig .tc .vmem S1x128 .i32) (harg7 : arg7.IsWhole) (arg8 : Memref sig .tc .vmem S1x128 .i32) (harg8 : arg8.IsWhole) (arg9 : Memref sig .tc .vmem S1x128 .i32) (harg9 : arg9.IsWhole) (arg10 : Memref sig .tc .vmem S1x128 .i32) (harg10 : arg10.IsWhole) (arg11 : Memref sig .tc .vmem S1x128 .i32) (harg11 : arg11.IsWhole) (arg12 : Memref sig .tc .vmem S139x128 .f32) (harg12 : arg12.IsWhole) (arg13 : Memref sig .tc .vmem S1x128x128x128 .f32) (harg13 : arg13.IsWhole)
    (x0 : Vec F S1x128 .i32) (x1 : Vec F S1x128 .i32) (x2 : Vec F S1x128 .i32) (x3 : Vec F S1x128 .i32) (x4 : Vec F S1x128 .i32) (x5 : Vec F S1x128 .i32) (x6 : Vec F S1x128 .i32) (x7 : Vec F S1x128 .i32) (x8 : Vec F S1x128 .i32) (x9 : Vec F S1x128 .i32) (x10 : Vec F S139x128 .f32) : Vec F S1x128x128x128 .f32 :=
  VO.read (Elt F) (VO.writes (Elt F) VO.junk (kernelRun c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).1)

/-- The output tile after the body at grid point `t`: the run's contents at the point's buffers and input blocks. -/
def outsAt (c : Dev nD) (t : Fin cfg0.N) : Vec F S1x128x128x128 .f32 :=
  outBlk c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (iblk m c 0 t) (iblk m c 1 t) (iblk m c 2 t) (iblk m c 3 t) (iblk m c 4 t) (iblk m c 5 t) (iblk m c 6 t) (iblk m c 7 t) (iblk m c 8 t) (iblk m c 9 t) (iblk m c 10 t)

/-! ## The pipeline's proof data -/

/-- The arrays as the region finds them; after the body at a point each input's buffer at its block and the output's
    at the tile; between points nothing but the core's other scoped buffers; nothing owed; each shared integer array
    read at one half of its share by the row window and at the other half by the column window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outsAt m c t
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare.left
    | ⟨3, _⟩ => fullShare.right
    | ⟨4, _⟩ => fullShare.left
    | ⟨5, _⟩ => fullShare.right
    | ⟨6, _⟩ => fullShare.left
    | ⟨7, _⟩ => fullShare.right
    | ⟨8, _⟩ => fullShare.left
    | ⟨9, _⟩ => fullShare.right
    | ⟨10, _⟩ => fullShare
    | ⟨11, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = outsAt m c t := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d
theorem before_10 (c : Dev nD) (t : Fin cfg0.N) (d) : (dats m 0 c).before 10 t d = iblk m c 10 t :=
  before_10_of m (dats m 0 c) (A_eq m c 10) (after_10 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d))
    ∗ (∃ d, owns (c : Thread nD τ) (ms_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t)
    ∗ owns (c : Thread nD τ) (ms_6 t) fullShare ((dats m 0 c).after 6 t)
    ∗ owns (c : Thread nD τ) (ms_7 t) fullShare ((dats m 0 c).after 7 t)
    ∗ owns (c : Thread nD τ) (ms_8 t) fullShare ((dats m 0 c).after 8 t)
    ∗ owns (c : Thread nD τ) (ms_9 t) fullShare ((dats m 0 c).after 9 t)
    ∗ owns (c : Thread nD τ) (ms_10 t) fullShare ((dats m 0 c).after 10 t)
    ∗ owns (c : Thread nD τ) (ms_11 t) fullShare ((dats m 0 c).after 11 t))

set_option maxHeartbeats 2000000 in
/-- The body at any point: the inputs' buffers hold their blocks, so the run applies; the invariant and the core's
    debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11]
  unfold outsAt
  unfold outBlk
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, ⟨%e11, H11⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  unfold owns; iexists _; isplitr
  swap; · iexact H11
  ipureintro; exact View.read_writes_of_cover _ _ _ _ _ (cover c _ _ _ _ _ _ _ _ _ _ _ _ _ _ _ _ _ _ _ _ _ _ _ _ _ _ _ _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  exact sound_body m c t

/-! ## The arrays' shares at the region's entry -/

/-- The seven distinct buffers behind the twelve windows' arrays, one by one. -/
theorem arrBufs_chain (c : Dev nD) :
    (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_arg1) ↦{fullShare} V m c main_arg1) ∗ (((c : Thread nD τ).loc main_arg2) ↦{fullShare} V m c main_arg2) ∗ (((c : Thread nD τ).loc main_arg3) ↦{fullShare} V m c main_arg3) ∗ (((c : Thread nD τ).loc main_arg4) ↦{fullShare} V m c main_arg4) ∗ (((c : Thread nD τ).loc main_arg5) ↦{fullShare} V m c main_arg5) ∗ (((c : Thread nD τ).loc main_v0) ↦{fullShare} V m c main_v0)) := by
  unfold Pipeline.arrBufs
  exact bigSep_eq_bigSepL_of_eq [main_arg0, main_arg1, main_arg2, main_arg3, main_arg4, main_arg5, main_v0] (by decide) (by decide) _

/-- The pipeline's view of its arrays at the region's entry: every window's array is a whole buffer, held at the
    window's share at the region-entry contents. -/
theorem arrays_flat (c : Dev nD) : (dats m 0 c).arrays ((dats m 0 c).arrAt · 0)
    = bigSep Finset.univ fun w : Fin 12 => (((c : Thread nD τ).loc (Pipeline.arrRef spec0 w)) ↦{(dats m 0 c).share w} V m c (Pipeline.arrRef spec0 w) : sProp 𝕄) := by
  unfold Dat.arrays
  exact bigSep_congr fun w _ => by rw [(arr_whole0 w).set_eq_univ]; rfl

theorem share_0 (c : Dev nD) : (dats m 0 c).share 0 = fullShare.left := rfl
theorem share_1 (c : Dev nD) : (dats m 0 c).share 1 = fullShare.right := rfl
theorem share_2 (c : Dev nD) : (dats m 0 c).share 2 = fullShare.left := rfl
theorem share_3 (c : Dev nD) : (dats m 0 c).share 3 = fullShare.right := rfl
theorem share_4 (c : Dev nD) : (dats m 0 c).share 4 = fullShare.left := rfl
theorem share_5 (c : Dev nD) : (dats m 0 c).share 5 = fullShare.right := rfl
theorem share_6 (c : Dev nD) : (dats m 0 c).share 6 = fullShare.left := rfl
theorem share_7 (c : Dev nD) : (dats m 0 c).share 7 = fullShare.right := rfl
theorem share_8 (c : Dev nD) : (dats m 0 c).share 8 = fullShare.left := rfl
theorem share_9 (c : Dev nD) : (dats m 0 c).share 9 = fullShare.right := rfl
theorem share_10 (c : Dev nD) : (dats m 0 c).share 10 = fullShare := rfl
theorem share_11 (c : Dev nD) : (dats m 0 c).share 11 = fullShare := rfl

/-- Each integer array's full share splits into the row window's half and the column window's half; the table and the
    result go whole to their one window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_chain, arrays_flat, bigSep_W0]
  rw [share_0 m c, share_1 m c, share_2 m c, share_3 m c, share_4 m c, share_5 m c, share_6 m c, share_7 m c, share_8 m c, share_9 m c, share_10 m c, share_11 m c]
  iintro ⟨H0, H1, H2, H3, H4, H5, Hv⟩
  ihave H0 := (pointsTo_share (PosShare.mem_left_op_right fullShare)).1 $$ H0
  icases H0 with ⟨H0a, H0b⟩
  ihave H1 := (pointsTo_share (PosShare.mem_left_op_right fullShare)).1 $$ H1
  icases H1 with ⟨H1a, H1b⟩
  ihave H2 := (pointsTo_share (PosShare.mem_left_op_right fullShare)).1 $$ H2
  icases H2 with ⟨H2a, H2b⟩
  ihave H3 := (pointsTo_share (PosShare.mem_left_op_right fullShare)).1 $$ H3
  icases H3 with ⟨H3a, H3b⟩
  ihave H4 := (pointsTo_share (PosShare.mem_left_op_right fullShare)).1 $$ H4
  icases H4 with ⟨H4a, H4b⟩
  isplitl [H0a]; · iexact H0a
  isplitl [H0b]; · iexact H0b
  isplitl [H1a]; · iexact H1a
  isplitl [H1b]; · iexact H1b
  isplitl [H3a]; · iexact H3a
  isplitl [H3b]; · iexact H3b
  isplitl [H2a]; · iexact H2a
  isplitl [H2b]; · iexact H2b
  isplitl [H4a]; · iexact H4a
  isplitl [H4b]; · iexact H4b
  isplitl [H5]; · iexact H5
  iexact Hv

/-! ## The run and the frame -/

set_option backward.isDefEq.respectTransparency.types false in
/-- Every weakly fair execution terminates, and every final state has every array of the pipeline at what the
    write-backs compute from the proof data and every other unscoped buffer as the region found it. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hΦ := fun _ _ => rfl)

/-- The frame: the argument arrays end unchanged (an input window's array ends at its entry contents). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats m 0 c).arrAt_in 0 rfl _).trans (A_eq m c 0)),
      ((h c).1 2).trans (((dats m 0 c).arrAt_in 2 rfl _).trans (A_eq m c 2)),
      ((h c).1 6).trans (((dats m 0 c).arrAt_in 6 rfl _).trans (A_eq m c 6)),
      ((h c).1 4).trans (((dats m 0 c).arrAt_in 4 rfl _).trans (A_eq m c 4)),
      ((h c).1 8).trans (((dats m 0 c).arrAt_in 8 rfl _).trans (A_eq m c 8)),
      ((h c).1 10).trans (((dats m 0 c).arrAt_in 10 rfl _).trans (A_eq m c 10))⟩) (run_main m ρ)

/-- The run with the result array named: it ends at the library's fold of the 64 write-backs over its entry contents,
    the arguments unchanged. -/
theorem run_named : θ_run defs (onTc (τ := τ) (main (F := F))) ⟨m, fun _ => 0, ρ⟩ (fun r => ∀ c : Dev nD,
      r.2.mem ((c.tc : Thread nD τ).loc main_v0) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1 11, ((h c).1 0).trans (((dats m 0 c).arrAt_in 0 rfl _).trans (A_eq m c 0)),
      ((h c).1 2).trans (((dats m 0 c).arrAt_in 2 rfl _).trans (A_eq m c 2)),
      ((h c).1 6).trans (((dats m 0 c).arrAt_in 6 rfl _).trans (A_eq m c 6)),
      ((h c).1 4).trans (((dats m 0 c).arrAt_in 4 rfl _).trans (A_eq m c 4)),
      ((h c).1 8).trans (((dats m 0 c).arrAt_in 8 rfl _).trans (A_eq m c 8)),
      ((h c).1 10).trans (((dats m 0 c).arrAt_in 10 rfl _).trans (A_eq m c 10))⟩) (run_main m ρ)

end Cert.Kernel.Frm

end
-- ==== Proof.KernelIdealRun.lean ====
/-
  The kernel body of the relative-position encoding, run once on whole staging buffers.

  The body loads ten blocks of 128 integer features (the row tile's and the column tile's sequence index, colour,
  entity, symmetry and token index), four row ranges of the weight table, forms the three class indices of every pair
  in the 128 × 128 tile, looks the classes' rows up as one-hot products, adds the entity row where the entities agree,
  and stores the 128 × 128 × 128 tile whole. Run symbolically, the body leaves every input buffer as it was and the
  output buffer with one stored piece, the tile; the piece is found by the run itself.
-/
import proofs.«416035_j8624294330880_2_alg».proof.Proof.Gen.KernelIdeal.Launch
import proofs.«416035_j8624294330880_2_alg».proof.Proof.Gen.KernelIdeal.Skeleton
import proofs.«416035_j8624294330880_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its one region -/

/-- A core's buffers when the region is entered: as launched (the program is the region alone). -/
abbrev V (c : Dev nD) (b : Ref sig .tc) : Buf (Elt F) ((c : Thread nD τ).loc b) := m ((c : Thread nD τ).loc b)

/-- The program up to the region is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not (a point that does
    not fetch has the block index of the point before), for any proof data whose array is the region-entry contents
    and whose body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The staging buffers at a point -/

/-- One staging buffer of the output window, through which its contents are stated. -/
abbrev VO : View sig .tc .vmem S1x128x128x128 .f32 := (Memref.whole cc0_stg11_0 : Memref sig .tc .vmem S1x128x128x128 .f32).view
abbrev ms_0 (t : Fin cfg0.N) : Memref sig .tc .vmem S1x128 .i32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x128 .i32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x128 .i32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x128 .i32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1x128 .i32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S1x128 .i32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S1x128 .i32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S1x128 .i32 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S1x128 .i32 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S1x128 .i32 := win0_9.stage (cfg0.slots t 9)
abbrev hs_9 (t : Fin cfg0.N) : (ms_9 t).IsWhole := hstage0_9 ((cfg0.slots t 9).cast nbuf0_9)
abbrev ms_10 (t : Fin cfg0.N) : Memref sig .tc .vmem S139x128 .f32 := win0_10.stage (cfg0.slots t 10)
abbrev hs_10 (t : Fin cfg0.N) : (ms_10 t).IsWhole := hstage0_10 ((cfg0.slots t 10).cast nbuf0_10)
abbrev ms_11 (t : Fin cfg0.N) : Memref sig .tc .vmem S1x128x128x128 .f32 := win0_11.stage (cfg0.slots t 11)
abbrev hs_11 (t : Fin cfg0.N) : (ms_11 t).IsWhole := hstage0_11 ((cfg0.slots t 11).cast nbuf0_11)

/-! ## The body on any whole staging buffers -/

set_option maxHeartbeats 4000000 in
/-- The pieces the body's stores leave in the output buffer (last first), with the proof that on whole staging buffers —
    the inputs' at their contents, the output's at anything — the body runs to the continuation holding the inputs'
    as they were and the output's with those pieces written. -/
noncomputable def kernelRun (c : Dev nD) (i : grid0.Coords) (arg2 : Memref sig .tc .vmem S1x128 .i32) (harg2 : arg2.IsWhole) (arg3 : Memref sig .tc .vmem S1x128 .i32) (harg3 : arg3.IsWhole) (arg4 : Memref sig .tc .vmem S1x128 .i32) (harg4 : arg4.IsWhole) (arg5 : Memref sig .tc .vmem S1x128 .i32) (harg5 : arg5.IsWhole) (arg6 : Memref sig .tc .vmem S1x128 .i32) (harg6 : arg6.IsWhole) (arg7 : Memref sig .tc .vmem S1x128 .i32) (harg7 : arg7.IsWhole) (arg8 : Memref sig .tc .vmem S1x128 .i32) (harg8 : arg8.IsWhole) (arg9 : Memref sig .tc .vmem S1x128 .i32) (harg9 : arg9.IsWhole) (arg10 : Memref sig .tc .vmem S1x128 .i32) (harg10 : arg10.IsWhole) (arg11 : Memref sig .tc .vmem S1x128 .i32) (harg11 : arg11.IsWhole) (arg12 : Memref sig .tc .vmem S139x128 .f32) (harg12 : arg12.IsWhole) (arg13 : Memref sig .tc .vmem S1x128x128x128 .f32) (harg13 : arg13.IsWhole)
    (x0 : Vec F S1x128 .i32) (x1 : Vec F S1x128 .i32) (x2 : Vec F S1x128 .i32) (x3 : Vec F S1x128 .i32) (x4 : Vec F S1x128 .i32) (x5 : Vec F S1x128 .i32) (x6 : Vec F S1x128 .i32) (x7 : Vec F S1x128 .i32) (x8 : Vec F S1x128 .i32) (x9 : Vec F S1x128 .i32) (x10 : Vec F S139x128 .f32) :
    { L : List (View.Piece (Elt F) S1x128x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L)) -∗ K ⟨⟩))
          ⊢ wp frame (wpE (defs₀ (F := F)) Variants.none c none) E (cc0__rel_pos_kernel i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__rel_pos_kernel_eq_skeleton]; unfold cc0__rel_pos_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg12.eq_unread hf10
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; iexact H11

end Cert.KernelIdeal.Frm

end
-- ==== Proof.KernelIdealFrame.lean ====
/-
  The frame of the relative-position encoding's program: from any memory with zero semaphore counters every weakly fair
  execution terminates without a fault, the six argument arrays end unchanged, and the result array ends at what the
  write-backs of the 64 tiles compute.

  Each integer argument is handed to the kernel twice, once blocked by the tile's row and once by its column, so two
  input windows share each of those arrays: the array's full share is divided in two halves, one per window (both only
  read it). The weight table and the result have a window of their own and are held whole. The body's run on whole
  staging buffers gives the body obligation at every grid point; the launch for shared arrays gives the run.
-/
import proofs.«416035_j8624294330880_2_alg».proof.Proof.KernelIdealRun
import proofs.«416035_j8624294330880_2_alg».proof.Proof.LibSharedFrame

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in the output buffer -/

/-- The run's pieces tile the output block (one store of the whole tile), so they cover it. -/
theorem cover (c : Dev nD) (i : grid0.Coords) (arg2 : Memref sig .tc .vmem S1x128 .i32) (harg2 : arg2.IsWhole) (arg3 : Memref sig .tc .vmem S1x128 .i32) (harg3 : arg3.IsWhole) (arg4 : Memref sig .tc .vmem S1x128 .i32) (harg4 : arg4.IsWhole) (arg5 : Memref sig .tc .vmem S1x128 .i32) (harg5 : arg5.IsWhole) (arg6 : Memref sig .tc .vmem S1x128 .i32) (harg6 : arg6.IsWhole) (arg7 : Memref sig .tc .vmem S1x128 .i32) (harg7 : arg7.IsWhole) (arg8 : Memref sig .tc .vmem S1x128 .i32) (harg8 : arg8.IsWhole) (arg9 : Memref sig .tc .vmem S1x128 .i32) (harg9 : arg9.IsWhole) (arg10 : Memref sig .tc .vmem S1x128 .i32) (harg10 : arg10.IsWhole) (arg11 : Memref sig .tc .vmem S1x128 .i32) (harg11 : arg11.IsWhole) (arg12 : Memref sig .tc .vmem S139x128 .f32) (harg12 : arg12.IsWhole) (arg13 : Memref sig .tc .vmem S1x128x128x128 .f32) (harg13 : arg13.IsWhole)
    (x0 : Vec F S1x128 .i32) (x1 : Vec F S1x128 .i32) (x2 : Vec F S1x128 .i32) (x3 : Vec F S1x128 .i32) (x4 : Vec F S1x128 .i32) (x5 : Vec F S1x128 .i32) (x6 : Vec F S1x128 .i32) (x7 : Vec F S1x128 .i32) (x8 : Vec F S1x128 .i32) (x9 : Vec F S1x128 .i32) (x10 : Vec F S139x128 .f32) (y : S1x128x128x128.Idx) :
    ∃ pc ∈ (kernelRun c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).1, y ∈ pc.1.set :=
  View.cover_of_tiledL (kernelRun c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).1 S1x128x128x128.size (by sl_kernel_rfl) y

/-- What the run leaves in the output's staging buffer: its pieces read back. -/
def outBlk (c : Dev nD) (i : grid0.Coords) (arg2 : Memref sig .tc .vmem S1x128 .i32) (harg2 : arg2.IsWhole) (arg3 : Memref sig .tc .vmem S1x128 .i32) (harg3 : arg3.IsWhole) (arg4 : Memref sig .tc .vmem S1x128 .i32) (harg4 : arg4.IsWhole) (arg5 : Memref sig .tc .vmem S1x128 .i32) (harg5 : arg5.IsWhole) (arg6 : Memref sig .tc .vmem S1x128 .i32) (harg6 : arg6.IsWhole) (arg7 : Memref sig .tc .vmem S1x128 .i32) (harg7 : arg7.IsWhole) (arg8 : Memref sig .tc .vmem S1x128 .i32) (harg8 : arg8.IsWhole) (arg9 : Memref sig .tc .vmem S1x128 .i32) (harg9 : arg9.IsWhole) (arg10 : Memref sig .tc .vmem S1x128 .i32) (harg10 : arg10.IsWhole) (arg11 : Memref sig .tc .vmem S1x128 .i32) (harg11 : arg11.IsWhole) (arg12 : Memref sig .tc .vmem S139x128 .f32) (harg12 : arg12.IsWhole) (arg13 : Memref sig .tc .vmem S1x128x128x128 .f32) (harg13 : arg13.IsWhole)
    (x0 : Vec F S1x128 .i32) (x1 : Vec F S1x128 .i32) (x2 : Vec F S1x128 .i32) (x3 : Vec F S1x128 .i32) (x4 : Vec F S1x128 .i32) (x5 : Vec F S1x128 .i32) (x6 : Vec F S1x128 .i32) (x7 : Vec F S1x128 .i32) (x8 : Vec F S1x128 .i32) (x9 : Vec F S1x128 .i32) (x10 : Vec F S139x128 .f32) : Vec F S1x128x128x128 .f32 :=
  VO.read (Elt F) (VO.writes (Elt F) VO.junk (kernelRun c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).1)

/-- The output tile after the body at grid point `t`: the run's contents at the point's buffers and input blocks. -/
def outsAt (c : Dev nD) (t : Fin cfg0.N) : Vec F S1x128x128x128 .f32 :=
  outBlk c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (iblk m c 0 t) (iblk m c 1 t) (iblk m c 2 t) (iblk m c 3 t) (iblk m c 4 t) (iblk m c 5 t) (iblk m c 6 t) (iblk m c 7 t) (iblk m c 8 t) (iblk m c 9 t) (iblk m c 10 t)

/-! ## The pipeline's proof data -/

/-- The arrays as the region finds them; after the body at a point each input's buffer at its block and the output's
    at the tile; between points nothing but the core's other scoped buffers; nothing owed; each shared integer array
    read at one half of its share by the row window and at the other half by the column window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outsAt m c t
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare.left
    | ⟨3, _⟩ => fullShare.right
    | ⟨4, _⟩ => fullShare.left
    | ⟨5, _⟩ => fullShare.right
    | ⟨6, _⟩ => fullShare.left
    | ⟨7, _⟩ => fullShare.right
    | ⟨8, _⟩ => fullShare.left
    | ⟨9, _⟩ => fullShare.right
    | ⟨10, _⟩ => fullShare
    | ⟨11, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = outsAt m c t := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d
theorem before_10 (c : Dev nD) (t : Fin cfg0.N) (d) : (dats m 0 c).before 10 t d = iblk m c 10 t :=
  before_10_of m (dats m 0 c) (A_eq m c 10) (after_10 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d))
    ∗ (∃ d, owns (c : Thread nD τ) (ms_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t)
    ∗ owns (c : Thread nD τ) (ms_6 t) fullShare ((dats m 0 c).after 6 t)
    ∗ owns (c : Thread nD τ) (ms_7 t) fullShare ((dats m 0 c).after 7 t)
    ∗ owns (c : Thread nD τ) (ms_8 t) fullShare ((dats m 0 c).after 8 t)
    ∗ owns (c : Thread nD τ) (ms_9 t) fullShare ((dats m 0 c).after 9 t)
    ∗ owns (c : Thread nD τ) (ms_10 t) fullShare ((dats m 0 c).after 10 t)
    ∗ owns (c : Thread nD τ) (ms_11 t) fullShare ((dats m 0 c).after 11 t))

set_option maxHeartbeats 2000000 in
/-- The body at any point: the inputs' buffers hold their blocks, so the run applies; the invariant and the core's
    debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11]
  unfold outsAt
  unfold outBlk
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, ⟨%e11, H11⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  unfold owns; iexists _; isplitr
  swap; · iexact H11
  ipureintro; exact View.read_writes_of_cover _ _ _ _ _ (cover c _ _ _ _ _ _ _ _ _ _ _ _ _ _ _ _ _ _ _ _ _ _ _ _ _ _ _ _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  exact sound_body m c t

/-! ## The arrays' shares at the region's entry -/

/-- The seven distinct buffers behind the twelve windows' arrays, one by one. -/
theorem arrBufs_chain (c : Dev nD) :
    (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_arg1) ↦{fullShare} V m c main_arg1) ∗ (((c : Thread nD τ).loc main_arg2) ↦{fullShare} V m c main_arg2) ∗ (((c : Thread nD τ).loc main_arg3) ↦{fullShare} V m c main_arg3) ∗ (((c : Thread nD τ).loc main_arg4) ↦{fullShare} V m c main_arg4) ∗ (((c : Thread nD τ).loc main_arg5) ↦{fullShare} V m c main_arg5) ∗ (((c : Thread nD τ).loc main_v0) ↦{fullShare} V m c main_v0)) := by
  unfold Pipeline.arrBufs
  exact bigSep_eq_bigSepL_of_eq [main_arg0, main_arg1, main_arg2, main_arg3, main_arg4, main_arg5, main_v0] (by decide) (by decide) _

/-- The pipeline's view of its arrays at the region's entry: every window's array is a whole buffer, held at the
    window's share at the region-entry contents. -/
theorem arrays_flat (c : Dev nD) : (dats m 0 c).arrays ((dats m 0 c).arrAt · 0)
    = bigSep Finset.univ fun w : Fin 12 => (((c : Thread nD τ).loc (Pipeline.arrRef spec0 w)) ↦{(dats m 0 c).share w} V m c (Pipeline.arrRef spec0 w) : sProp 𝕄) := by
  unfold Dat.arrays
  exact bigSep_congr fun w _ => by rw [(arr_whole0 w).set_eq_univ]; rfl

theorem share_0 (c : Dev nD) : (dats m 0 c).share 0 = fullShare.left := rfl
theorem share_1 (c : Dev nD) : (dats m 0 c).share 1 = fullShare.right := rfl
theorem share_2 (c : Dev nD) : (dats m 0 c).share 2 = fullShare.left := rfl
theorem share_3 (c : Dev nD) : (dats m 0 c).share 3 = fullShare.right := rfl
theorem share_4 (c : Dev nD) : (dats m 0 c).share 4 = fullShare.left := rfl
theorem share_5 (c : Dev nD) : (dats m 0 c).share 5 = fullShare.right := rfl
theorem share_6 (c : Dev nD) : (dats m 0 c).share 6 = fullShare.left := rfl
theorem share_7 (c : Dev nD) : (dats m 0 c).share 7 = fullShare.right := rfl
theorem share_8 (c : Dev nD) : (dats m 0 c).share 8 = fullShare.left := rfl
theorem share_9 (c : Dev nD) : (dats m 0 c).share 9 = fullShare.right := rfl
theorem share_10 (c : Dev nD) : (dats m 0 c).share 10 = fullShare := rfl
theorem share_11 (c : Dev nD) : (dats m 0 c).share 11 = fullShare := rfl

/-- Each integer array's full share splits into the row window's half and the column window's half; the table and the
    result go whole to their one window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_chain, arrays_flat, bigSep_W0]
  rw [share_0 m c, share_1 m c, share_2 m c, share_3 m c, share_4 m c, share_5 m c, share_6 m c, share_7 m c, share_8 m c, share_9 m c, share_10 m c, share_11 m c]
  iintro ⟨H0, H1, H2, H3, H4, H5, Hv⟩
  ihave H0 := (pointsTo_share (PosShare.mem_left_op_right fullShare)).1 $$ H0
  icases H0 with ⟨H0a, H0b⟩
  ihave H1 := (pointsTo_share (PosShare.mem_left_op_right fullShare)).1 $$ H1
  icases H1 with ⟨H1a, H1b⟩
  ihave H2 := (pointsTo_share (PosShare.mem_left_op_right fullShare)).1 $$ H2
  icases H2 with ⟨H2a, H2b⟩
  ihave H3 := (pointsTo_share (PosShare.mem_left_op_right fullShare)).1 $$ H3
  icases H3 with ⟨H3a, H3b⟩
  ihave H4 := (pointsTo_share (PosShare.mem_left_op_right fullShare)).1 $$ H4
  icases H4 with ⟨H4a, H4b⟩
  isplitl [H0a]; · iexact H0a
  isplitl [H0b]; · iexact H0b
  isplitl [H1a]; · iexact H1a
  isplitl [H1b]; · iexact H1b
  isplitl [H3a]; · iexact H3a
  isplitl [H3b]; · iexact H3b
  isplitl [H2a]; · iexact H2a
  isplitl [H2b]; · iexact H2b
  isplitl [H4a]; · iexact H4a
  isplitl [H4b]; · iexact H4b
  isplitl [H5]; · iexact H5
  iexact Hv

/-! ## The run and the frame -/

set_option backward.isDefEq.respectTransparency.types false in
/-- Every weakly fair execution terminates, and every final state has every array of the pipeline at what the
    write-backs compute from the proof data and every other unscoped buffer as the region found it. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hΦ := fun _ _ => rfl)

/-- The frame: the argument arrays end unchanged (an input window's array ends at its entry contents). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats m 0 c).arrAt_in 0 rfl _).trans (A_eq m c 0)),
      ((h c).1 2).trans (((dats m 0 c).arrAt_in 2 rfl _).trans (A_eq m c 2)),
      ((h c).1 6).trans (((dats m 0 c).arrAt_in 6 rfl _).trans (A_eq m c 6)),
      ((h c).1 4).trans (((dats m 0 c).arrAt_in 4 rfl _).trans (A_eq m c 4)),
      ((h c).1 8).trans (((dats m 0 c).arrAt_in 8 rfl _).trans (A_eq m c 8)),
      ((h c).1 10).trans (((dats m 0 c).arrAt_in 10 rfl _).trans (A_eq m c 10))⟩) (run_main m ρ)

/-- The run with the result array named: it ends at the library's fold of the 64 write-backs over its entry contents,
    the arguments unchanged. -/
theorem run_named : θ_run defs (onTc (τ := τ) (main (F := F))) ⟨m, fun _ => 0, ρ⟩ (fun r => ∀ c : Dev nD,
      r.2.mem ((c.tc : Thread nD τ).loc main_v0) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1 11, ((h c).1 0).trans (((dats m 0 c).arrAt_in 0 rfl _).trans (A_eq m c 0)),
      ((h c).1 2).trans (((dats m 0 c).arrAt_in 2 rfl _).trans (A_eq m c 2)),
      ((h c).1 6).trans (((dats m 0 c).arrAt_in 6 rfl _).trans (A_eq m c 6)),
      ((h c).1 4).trans (((dats m 0 c).arrAt_in 4 rfl _).trans (A_eq m c 4)),
      ((h c).1 8).trans (((dats m 0 c).arrAt_in 8 rfl _).trans (A_eq m c 8)),
      ((h c).1 10).trans (((dats m 0 c).arrAt_in 10 rfl _).trans (A_eq m c 10))⟩) (run_main m ρ)

end Cert.KernelIdeal.Frm

end
-- ==== Proof.Spec.lean ====
/-
  The relative-position encoding as one function of the argument arrays, index by index.

  For a pair of positions (i, j) three class indices are formed from integer features: a signed difference clipped to
  [-r, r] and shifted to [0, 2r] when a gate bit is set, and the extra class 2r + 1 when it is not. The sequence class is
  gated by "same colour", the token class by "same colour and same sequence index", the symmetry class by "same entity".
  The output vector at (i, j) is the sum of three rows of the weight table W — row (sequence class), row 66 + (token
  class), row 133 + (symmetry class) — plus row 132 when the two entities agree.
-/
import Idealize.ShloMosaic.PureOps.Ideal
import Idealize.ShloMosaic.Lib.ValueIdx

noncomputable section

namespace Cert.Proof.Spec

open Idealize.ShloMosaic Idealize.ShloMosaic.ValueIdx

/-- A row of 1024 integer features. -/
abbrev Feat : Type := (⟨2, ![1, 1024]⟩ : Shape).Idx → BitVec 32
/-- The weight table: 139 rows of 128 extended reals. -/
abbrev Tbl : Type := (⟨2, ![139, 128]⟩ : Shape).Idx → EReal

/-- Word equality as a bit. -/
def eqb (a b : BitVec 32) : BitVec 1 := IntOp.cmpi .eq a b

/-- The class of a pair: the signed difference `a - b` clipped to [lo, hi], shifted by `off`, when the gate `keep` is
    set; the default class otherwise. -/
def cls (lo hi off dflt : BitVec 32) (keep : BitVec 1) (a b : BitVec 32) : BitVec 32 :=
  Scalar.select keep (IntOp.addi (IntOp.minsi hi (IntOp.maxsi lo (IntOp.subi a b))) off) dflt

/-- The sequence class and the token class live in [0, 65]. -/
abbrev clsWide (keep : BitVec 1) (a b : BitVec 32) : BitVec 32 := cls 4294967264#32 32#32 32#32 65#32 keep a b
/-- The symmetry class lives in [0, 5]. -/
abbrev clsNarrow (keep : BitVec 1) (a b : BitVec 32) : BitVec 32 := cls 4294967294#32 2#32 2#32 5#32 keep a b

/-- A gate bit as an extended real: one when set, zero when clear. -/
def boolE (b : BitVec 1) : EReal := if b = 1#1 then 1 else 0

/-- Row `d` (clamped to the last row) of a table of `n` rows, at column `k`. -/
def rowOf (n : Nat) (hn : 0 < n) (v : (⟨2, ![n, 128]⟩ : Shape).Idx → EReal) (d : Nat) (k : Fin 128) : EReal :=
  v (ix2 (⟨min d (n - 1), by omega⟩ : Fin n) k)

/-- Feature `f` at position `i`. -/
abbrev at1 (f : Feat) (i : Fin 1024) : BitVec 32 := f (ix2 (0 : Fin 1) i)

def dSeq (idx col : Feat) (i j : Fin 1024) : BitVec 32 :=
  clsWide (eqb (at1 col i) (at1 col j)) (at1 idx i) (at1 idx j)
def dTok (idx col tok : Feat) (i j : Fin 1024) : BitVec 32 :=
  clsWide (IntOp.andi (eqb (at1 col i) (at1 col j)) (eqb (at1 idx i) (at1 idx j))) (at1 tok i) (at1 tok j)
def dSym (ent sym : Feat) (i j : Fin 1024) : BitVec 32 :=
  clsNarrow (eqb (at1 ent i) (at1 ent j)) (at1 sym i) (at1 sym j)

/-- The encoding at positions (i, j), channel k. -/
def enc (idx col sym ent tok : Feat) (W : Tbl) (i j : Fin 1024) (k : Fin 128) : EReal :=
  ((rowOf 139 (by decide) W (dSeq idx col i j).toNat k + rowOf 139 (by decide) W (66 + (dTok idx col tok i j).toNat) k)
      + rowOf 139 (by decide) W (133 + (dSym ent sym i j).toNat) k)
    + boolE (eqb (at1 ent i) (at1 ent j)) * W (ix2 (132 : Fin 139) k)

/-- The whole result array. -/
def encArr (idx col sym ent tok : Feat) (W : Tbl) : (⟨4, ![1, 1024, 1024, 128]⟩ : Shape).Idx → EReal := fun y =>
  enc idx col sym ent tok W ⟨(y 1).val, (y 1).isLt⟩ ⟨(y 2).val, (y 2).isLt⟩ ⟨(y 3).val, (y 3).isLt⟩

end Cert.Proof.Spec

end
-- ==== Proof.ClassFacts.lean ====
/-
  Facts about the class indices and the gate bits that both sides of the comparison use.

  A class index is a clipped, shifted signed difference or a default class, so it is a small natural number; a row
  offset plus a class index is a valid row of the 139-row table and is untouched by the host's wrap-around of negative
  indices; a one-hot vector against a table picks one row; a gate bit converted to a float is one or zero.
-/
import proofs.«416035_j8624294330880_2_alg».proof.Proof.Spec
import Mathlib.Algebra.BigOperators.Group.Finset.Basic
import Mathlib.Data.EReal.Basic
import Mathlib.Tactic.SplitIfs

noncomputable section

namespace Cert.Proof.ClassFacts

open Idealize.ShloMosaic Cert.Proof.Spec

/-- Adding a shift to a word whose signed value plus the shift lies in [0, n], n small, does not wrap: the sum read
    unsigned is at most n. -/
private theorem shift_le (y off : BitVec 32) (n : Nat) (h0 : 0 ≤ y.toInt + off.toInt)
    (h1 : y.toInt + off.toInt ≤ n) (hn : n < 1000) : (y + off).toNat ≤ n := by
  rw [BitVec.toNat_add]
  rw [BitVec.toInt_eq_toNat_cond, BitVec.toInt_eq_toNat_cond] at h0 h1
  have hy := y.isLt
  have ho := off.isLt
  split_ifs at h0 h1 <;> omega

/-- A word clipped (signed) to [lo, hi] and shifted by off, where lo + off = 0 and hi + off = n: whichever of lo, hi
    or the word itself the clip returns, its signed value is in [lo, hi], so the shifted word is in [0, n]. -/
private theorem clip_le (lo hi off x : BitVec 32) (n : Nat) (hlo : lo.toInt + off.toInt = 0)
    (hhi : hi.toInt + off.toInt = n) (hlh : lo.toInt ≤ hi.toInt) (hn : n < 1000) :
    (IntOp.addi (IntOp.minsi hi (IntOp.maxsi lo x)) off).toNat ≤ n := by
  unfold IntOp.addi IntOp.minsi IntOp.maxsi
  split_ifs with h1 h2 h2
  all_goals simp only [BitVec.slt_iff_toInt_lt] at *
  all_goals apply shift_le _ _ _ _ _ hn <;> omega

/-- A one-bit word is zero or one. -/
private theorem bit_cases (b : BitVec 1) : b = 0#1 ∨ b = 1#1 := by
  revert b; decide

/-- A word equals the 32-bit numeral of k < 2^32 exactly when its unsigned value is k. -/
private theorem eq_ofNat_iff (d : BitVec 32) (k : Nat) (hk : k < 2 ^ 32) : d = BitVec.ofNat 32 k ↔ d.toNat = k := by
  constructor
  · intro h; rw [h, BitVec.toNat_ofNat]; exact Nat.mod_eq_of_lt hk
  · intro h; subst h; simp

/-- A bit zero-extended to a word and read signed is 0 or 1; as an extended real that is the gate value. -/
private theorem sitofp_bit_aux (b : BitVec 1) :
    (FloatOps.sitofp (F := Ideal) FTy.f32 (b.setWidth 32) : EReal) = boolE b := by
  show (((b.setWidth 32).toInt : ℝ) : EReal) = boolE b
  rcases bit_cases b with rfl | rfl
  · have h : ((0#1).setWidth 32).toInt = 0 := by decide
    rw [h]; simp [boolE]
  · have h : ((1#1).setWidth 32).toInt = 1 := by decide
    rw [h]; simp [boolE]

/-- The wide class (clip to [-32, 32], shift by 32, default 65) is at most 65. -/
theorem clsWide_le (keep : BitVec 1) (a b : BitVec 32) : (clsWide keep a b).toNat ≤ 65 := by
  unfold clsWide cls Scalar.select
  split_ifs with hk
  · -- gate set: -32 + 32 = 0 and 32 + 32 = 64, so the class is in [0, 64]
    exact le_trans (clip_le _ _ _ _ 64 (by decide) (by decide) (by decide) (by decide)) (by decide)
  · -- gate clear: the default class 65
    decide

/-- The narrow class (clip to [-2, 2], shift by 2, default 5) is at most 5. -/
theorem clsNarrow_le (keep : BitVec 1) (a b : BitVec 32) : (clsNarrow keep a b).toNat ≤ 5 := by
  unfold clsNarrow cls Scalar.select
  split_ifs with hk
  · -- gate set: -2 + 2 = 0 and 2 + 2 = 4, so the class is in [0, 4]
    exact le_trans (clip_le _ _ _ _ 4 (by decide) (by decide) (by decide) (by decide)) (by decide)
  · -- gate clear: the default class 5
    decide

/-- The host's index normalisation (add the table's height to a negative index) leaves `off + d` where it is when that
    sum is a row of the table; read signed, the normalised word is that row. -/
theorem norm_row (off d : BitVec 32) (h : off.toNat + d.toNat < 139) :
    (Scalar.select (IntOp.cmpi .slt (IntOp.addi off d) 0#32) (IntOp.addi (IntOp.addi off d) 139#32)
        (IntOp.addi off d)).toInt = ((off.toNat + d.toNat : Nat) : Int) := by
  -- the sum is below 139, so the word addition does not wrap
  have hs : (off + d).toNat = off.toNat + d.toNat := by rw [BitVec.toNat_add]; omega
  -- and is below 2^31, so read signed it is the same number
  have hi : (off + d).toInt = ((off.toNat + d.toNat : Nat) : Int) := by
    rw [BitVec.toInt_eq_toNat_cond, hs]; split_ifs <;> omega
  -- hence it is not negative, and the normalisation keeps it
  have hns : (off + d).slt 0#32 = false := by
    rw [BitVec.slt_eq_decide, hi]
    exact decide_eq_false (by simp only [BitVec.toInt_zero]; omega)
  unfold Scalar.select IntOp.cmpi IntOp.addi
  simp only [hns]
  rw [if_neg (by decide)]
  exact hi

/-- A one-hot row against a table: the sum over `k` of [d = k] · w k is w d. -/
theorem onehot_sum (n : Nat) (d : BitVec 32) (hd : d.toNat < n) (hn : n ≤ 2147483648) (w : Fin n → EReal) :
    ∑ k : Fin n, (FloatOps.sitofp (F := Ideal) FTy.f32 ((IntOp.cmpi .eq d (BitVec.ofNat 32 k.val)).setWidth 32) : EReal) * w k
      = w ⟨d.toNat, hd⟩ := by
  rw [Finset.sum_eq_single (⟨d.toNat, hd⟩ : Fin n)]
  · -- at k = d the comparison bit is set and the factor is one
    have hc : IntOp.cmpi .eq d (BitVec.ofNat 32 d.toNat) = 1#1 := by
      unfold IntOp.cmpi; simp
    simp only [hc, sitofp_bit_aux]
    simp [boolE]
  · -- at k ≠ d the numeral of k (k < n ≤ 2^31, no wrap) differs from d, the bit is clear and the term is zero
    intro k _ hk
    have hc : IntOp.cmpi .eq d (BitVec.ofNat 32 k.val) = 0#1 := by
      unfold IntOp.cmpi
      have hne : ¬ d = BitVec.ofNat 32 k.val := by
        rw [eq_ofNat_iff d k.val (by have := k.isLt; omega)]
        intro h; apply hk; exact Fin.ext h.symm
      have hb : (d == BitVec.ofNat 32 k.val) = false := beq_eq_false_iff_ne.mpr hne
      simp only [hb]
      rfl
    simp only [hc, sitofp_bit_aux]
    simp [boolE]
  · intro h; exact absurd (Finset.mem_univ _) h

/-- A gate bit widened to a word and converted signed is one or zero. -/
theorem sitofp_bit (b : BitVec 1) : (FloatOps.sitofp (F := Ideal) FTy.f32 (b.setWidth 32) : EReal) = boolE b :=
  sitofp_bit_aux b

/-- A gate bit converted unsigned is one or zero. -/
theorem uitofp_bit (b : BitVec 1) : (FloatOps.uitofp (F := Ideal) FTy.f32 b : EReal) = boolE b := by
  show ((b.toNat : ℝ) : EReal) = boolE b
  rcases bit_cases b with rfl | rfl
  · simp [boolE]
  · simp [boolE]

end Cert.Proof.ClassFacts

end
-- ==== Proof.PayValue.lean ====
/-
  The kernel body's arithmetic read at one index, at the idealized instance.

  For a tile of 128 row positions and 128 column positions the body forms three class grids [128, 128, 1] from the integer
  features (a clipped, shifted difference, or a default class, gated by equalities of other features), turns each grid
  into a one-hot matrix [16384, n] (row 128·p + q for the pair (p, q)) and multiplies it with n rows of the weight table.
  A one-hot row against a table picks one row of it, so each product at (128·p + q, k) is the table's row of the class at
  (p, q), channel k. The three products are added, and the entity gate bit, as a float, times the table's extra row is
  added on top. Every layout step (a feature row as a column block or a row block, a block spread over the grid, the pair
  grid flattened to rows and laid back) only renames the index, one lemma each; the integer operations act pointwise.
-/
import proofs.«416035_j8624294330880_2_alg».proof.Proof.Gen.KernelIdeal.Skeleton
import proofs.«416035_j8624294330880_2_alg».proof.Proof.Spec
import proofs.«416035_j8624294330880_2_alg».proof.Proof.ClassFacts
import Idealize.ShloMosaic.Lib.ValueIdx
import Idealize.ShloMosaic.Lib.Pipeline.Value
import Idealize.ShloMosaic.Lib.ValueLayout
import Idealize.ShloMosaic.PureOps.Ideal.Laws

noncomputable section

namespace Cert.Proof.PayValue

open Cert.KernelIdeal Cert.KernelIdeal.Gen Cert.Proof.Spec Idealize.ShloMosaic Idealize.ShloMosaic.ValueIdx

/-! ## Layout steps read at an index -/

section Layout
variable {α : Type}

/-- A vector of `a` elements seen as a column block `[a, 1, 1]`: entry `(i, 0, 0)` is element `i`. -/
theorem shapeCast_a_a11_apply {a : ℕ} (x : (⟨1, ![a]⟩ : Shape).Idx → α) (h : (⟨1, ![a]⟩ : Shape).ShapeCasts ⟨3, ![a, 1, 1]⟩)
    (i : Fin a) (u v : Fin 1) : shapeCast ⟨3, ![a, 1, 1]⟩ x h (ix3 i u v) = x (ix1 i) :=
  shapeCast_apply x h _ _ (by
    have hu : u.val = 0 := by omega
    have hv : v.val = 0 := by omega
    rw [Shape.rowMajor_val_three, Shape.rowMajor_val_one]
    show i.val = (i.val * 1 + u.val) * 1 + v.val
    simp only [hu, hv, Nat.add_zero, Nat.mul_one])

/-- A vector of `a` elements seen as a row block `[1, a, 1]`: entry `(0, i, 0)` is element `i`. -/
theorem shapeCast_a_1a1_apply {a : ℕ} (x : (⟨1, ![a]⟩ : Shape).Idx → α) (h : (⟨1, ![a]⟩ : Shape).ShapeCasts ⟨3, ![1, a, 1]⟩)
    (u : Fin 1) (i : Fin a) (v : Fin 1) : shapeCast ⟨3, ![1, a, 1]⟩ x h (ix3 u i v) = x (ix1 i) :=
  shapeCast_apply x h _ _ (by
    have hu : u.val = 0 := by omega
    have hv : v.val = 0 := by omega
    rw [Shape.rowMajor_val_three, Shape.rowMajor_val_one]
    show i.val = (u.val * a + i.val) * 1 + v.val
    simp only [hu, hv, Nat.zero_mul, Nat.zero_add, Nat.add_zero, Nat.mul_one])

/-- A vector of `a` elements seen as a lane block `[1, 1, a]`: entry `(0, 0, i)` is element `i`. -/
theorem shapeCast_a_11a_apply {a : ℕ} (x : (⟨1, ![a]⟩ : Shape).Idx → α) (h : (⟨1, ![a]⟩ : Shape).ShapeCasts ⟨3, ![1, 1, a]⟩)
    (u v : Fin 1) (i : Fin a) : shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    simp only [hu, hv, Nat.zero_mul, Nat.zero_add, Nat.add_zero, Nat.mul_one])

/-- A column block `[a, 1, 1]` spread over `b` columns: entry `(p, q, 0)` is the block's entry `(p, 0, 0)`. -/
theorem broadcastTo_a11_ab1_apply {a b : ℕ} (v : (⟨3, ![a, 1, 1]⟩ : Shape).Idx → α)
    (h : (⟨3, ![a, 1, 1]⟩ : Shape).Broadcasts ⟨3, ![a, b, 1]⟩) (p : Fin a) (q : Fin b) (u : Fin 1) :
    broadcastTo ⟨3, ![a, b, 1]⟩ v h (ix3 p q u) = v (ix3 p (0 : Fin 1) (0 : Fin 1)) := by
  refine broadcastTo_apply v h (ix3 p q u) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

/-- A row block `[1, b, 1]` spread over `a` rows: entry `(p, q, 0)` is the block's entry `(0, q, 0)`. -/
theorem broadcastTo_1b1_ab1_apply {a b : ℕ} (v : (⟨3, ![1, b, 1]⟩ : Shape).Idx → α)
    (h : (⟨3, ![1, b, 1]⟩ : Shape).Broadcasts ⟨3, ![a, b, 1]⟩) (p : Fin a) (q : Fin b) (u : Fin 1) :
    broadcastTo ⟨3, ![a, b, 1]⟩ v h (ix3 p q u) = v (ix3 (0 : Fin 1) q (0 : Fin 1)) := by
  refine broadcastTo_apply v h (ix3 p q u) (ix3 (0 : Fin 1) q (0 : Fin 1)) fun ax => ?_
  match ax with
  | ⟨0, _⟩ => rfl
  | ⟨1, _⟩ =>
    show q.val = if b = 1 then 0 else q.val
    split
    · have := q.isLt; omega
    · rfl
  | ⟨2, _⟩ => rfl

/-- A block `[a, b, 1]` spread over `c` lanes: entry `(p, q, r)` is the block's entry `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A lane block `[1, 1, c]` spread over `a` rows and `b` columns: entry `(p, q, r)` is the block's entry `(0, 0, r)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ v h (ix3 p q r) = v (ix3 (0 : Fin 1) (0 : Fin 1) r) := by
  refine broadcastTo_apply v h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- The pair grid `[a, b, c]` flattened to rows: row `b·p + q` of the matrix, at lane `r`, is entry `(p, q, r)`. -/
theorem shapeCast_abc_rc_apply {a b c n : ℕ} (v : (⟨3, ![a, b, c]⟩ : Shape).Idx → α)
    (h : (⟨3, ![a, b, c]⟩ : Shape).ShapeCasts ⟨2, ![n, c]⟩) (p : Fin a) (q : Fin b) (r : Fin c) (m : Fin n)
    (hm : m.val = p.val * b + q.val) : shapeCast ⟨2, ![n, c]⟩ v h (ix2 m r) = v (ix3 p q r) :=
  shapeCast_apply v h _ _ (by
    rw [Shape.rowMajor_val_three, Shape.rowMajor_val_two]
    show (p.val * b + q.val) * c + r.val = m.val * c + r.val
    rw [hm])

/-- The rows of a matrix `[n, c]` laid back on the pair grid: entry `(p, q, r)` is row `b·p + q` at lane `r`. -/
theorem shapeCast_rc_abc_apply {a b c n : ℕ} (v : (⟨2, ![n, c]⟩ : Shape).Idx → α)
    (h : (⟨2, ![n, c]⟩ : Shape).ShapeCasts ⟨3, ![a, b, c]⟩) (p : Fin a) (q : Fin b) (r : Fin c) (m : Fin n)
    (hm : m.val = p.val * b + q.val) : shapeCast ⟨3, ![a, b, c]⟩ v h (ix3 p q r) = v (ix2 m r) :=
  shapeCast_apply v h _ _ (by
    rw [Shape.rowMajor_val_three, Shape.rowMajor_val_two]
    show m.val * c + r.val = (p.val * b + q.val) * c + r.val
    rw [hm])

end Layout
/-! ## The integer payloads at a pair of positions

A feature row `[1, 128]` reaches the pair grid `[128, 128, 1]` either as a column block (its entry at the row
position `p`) or as a row block (its entry at the column position `q`). -/

/-- A feature row as a column block: entry `(p, 0, 0)` is feature `p`. -/
theorem colBlock_apply (x : Vec Ideal S1x128 .i32) (h1 : S1x128.ShapeCasts S128) (h2 : S128.ShapeCasts S128x1x1)
    (p : Fin 128) (u v : Fin 1) :
    shapeCast S128x1x1 (shapeCast S128 x h1) h2 (ix3 p u v) = x (ix2 (0 : Fin 1) p) :=
  (shapeCast_a_a11_apply _ h2 p u v).trans (shapeCast_1a_a_apply x h1 p)

/-- A feature row as a row block: entry `(0, q, 0)` is feature `q`. -/
theorem rowBlock_apply (x : Vec Ideal S1x128 .i32) (h1 : S1x128.ShapeCasts S128) (h2 : S128.ShapeCasts S1x128x1)
    (u : Fin 1) (q : Fin 128) (v : Fin 1) :
    shapeCast S1x128x1 (shapeCast S128 x h1) h2 (ix3 u q v) = x (ix2 (0 : Fin 1) q) :=
  (shapeCast_a_1a1_apply _ h2 u q v).trans (shapeCast_1a_a_apply x h1 q)

theorem pay2_apply (x : Vec Ideal S1x128 .i32) (p : Fin 128) :
    k0_pay2 x (ix3 p (0 : Fin 1) (0 : Fin 1)) = x (ix2 (0 : Fin 1) p) := by
  unfold k0_pay2
  exact colBlock_apply x _ _ p 0 0

theorem pay3_apply (x : Vec Ideal S1x128 .i32) (q : Fin 128) :
    k0_pay3 x (ix3 (0 : Fin 1) q (0 : Fin 1)) = x (ix2 (0 : Fin 1) q) := by
  unfold k0_pay3
  exact rowBlock_apply x _ _ 0 q 0

theorem pay4_apply (x : Vec Ideal S1x128 .i32) (p : Fin 128) :
    k0_pay4 x (ix3 p (0 : Fin 1) (0 : Fin 1)) = x (ix2 (0 : Fin 1) p) := by
  unfold k0_pay4
  exact colBlock_apply x _ _ p 0 0

theorem pay5_apply (x : Vec Ideal S1x128 .i32) (q : Fin 128) :
    k0_pay5 x (ix3 (0 : Fin 1) q (0 : Fin 1)) = x (ix2 (0 : Fin 1) q) := by
  unfold k0_pay5
  exact rowBlock_apply x _ _ 0 q 0

theorem pay6_apply (x : Vec Ideal S1x128 .i32) (p : Fin 128) :
    k0_pay6 x (ix3 p (0 : Fin 1) (0 : Fin 1)) = x (ix2 (0 : Fin 1) p) := by
  unfold k0_pay6
  exact colBlock_apply x _ _ p 0 0

theorem pay7_apply (x : Vec Ideal S1x128 .i32) (q : Fin 128) :
    k0_pay7 x (ix3 (0 : Fin 1) q (0 : Fin 1)) = x (ix2 (0 : Fin 1) q) := by
  unfold k0_pay7
  exact rowBlock_apply x _ _ 0 q 0

/-- A column block's feature against a row block's feature, compared for equality at the pair `(p, q)`. -/
theorem pairEq_apply (a : IVec S128x1x1 32) (b : IVec S1x128x1 32) (ha : S128x1x1.Broadcasts S128x128x1)
    (hb : S1x128x1.Broadcasts S128x128x1) (p q : Fin 128) :
    cmpi .eq (broadcastTo S128x128x1 a ha) (broadcastTo S128x128x1 b hb) (ix3 p q (0 : Fin 1))
      = eqb (a (ix3 p (0 : Fin 1) (0 : Fin 1))) (b (ix3 (0 : Fin 1) q (0 : Fin 1))) := by
  show IntOp.cmpi .eq (broadcastTo S128x128x1 a ha (ix3 p q (0 : Fin 1))) (broadcastTo S128x128x1 b hb (ix3 p q (0 : Fin 1))) = _
  rw [broadcastTo_a11_ab1_apply a ha p q 0, broadcastTo_1b1_ab1_apply b hb p q 0]
  rfl

theorem pay8_apply (x y : Vec Ideal S1x128 .i32) (p q : Fin 128) :
    k0_pay8 x y (ix3 p q (0 : Fin 1)) = eqb (x (ix2 (0 : Fin 1) p)) (y (ix2 (0 : Fin 1) q)) := by
  unfold k0_pay8
  refine (pairEq_apply _ _ _ _ p q).trans ?_
  rw [pay2_apply, pay3_apply]

theorem pay9_apply (x y : Vec Ideal S1x128 .i32) (p q : Fin 128) :
    k0_pay9 x y (ix3 p q (0 : Fin 1)) = eqb (x (ix2 (0 : Fin 1) p)) (y (ix2 (0 : Fin 1) q)) := by
  unfold k0_pay9
  refine (pairEq_apply _ _ _ _ p q).trans ?_
  rw [colBlock_apply, rowBlock_apply]

theorem pay10_apply (x : Vec Ideal S1x128 .i32) (p q : Fin 128) :
    k0_pay10 x (ix3 p q (0 : Fin 1)) = x (ix2 (0 : Fin 1) p) := by
  unfold k0_pay10
  exact (broadcastTo_a11_ab1_apply _ _ p q 0).trans (colBlock_apply x _ _ p 0 0)

theorem pay11_apply (x : Vec Ideal S1x128 .i32) (p q : Fin 128) :
    k0_pay11 x (ix3 p q (0 : Fin 1)) = x (ix2 (0 : Fin 1) q) := by
  unfold k0_pay11
  exact (broadcastTo_1b1_ab1_apply _ _ p q 0).trans (rowBlock_apply x _ _ 0 q 0)

theorem pay12_apply (a b : IVec S128x128x1 32) (i : S128x128x1.Idx) : k0_pay12 a b i = eqb (a i) (b i) := rfl

/-- The clipped, shifted difference of a column block's feature and a row block's feature, or the default class. -/
theorem pay13_apply (a : IVec S128x1x1 32) (b : IVec S1x128x1 32) (g : IVec S128x128x1 1) (p q : Fin 128) :
    k0_pay13 a b g (ix3 p q (0 : Fin 1))
      = clsWide (g (ix3 p q (0 : Fin 1))) (a (ix3 p (0 : Fin 1) (0 : Fin 1))) (b (ix3 (0 : Fin 1) q (0 : Fin 1))) := by
  unfold k0_pay13
  show Scalar.select _ (IntOp.addi (IntOp.minsi _ (IntOp.maxsi _ (IntOp.subi
    (broadcastTo S128x128x1 a _ (ix3 p q (0 : Fin 1))) (broadcastTo S128x128x1 b _ (ix3 p q (0 : Fin 1)))))) _) _ = _
  rw [broadcastTo_a11_ab1_apply a _ p q 0, broadcastTo_1b1_ab1_apply b _ p q 0]
  rfl

theorem pay14_apply (a : IVec S128x1x1 32) (b : IVec S1x128x1 32) (e g : IVec S128x128x1 1) (p q : Fin 128) :
    k0_pay14 a b e g (ix3 p q (0 : Fin 1))
      = clsWide (IntOp.andi (g (ix3 p q (0 : Fin 1))) (e (ix3 p q (0 : Fin 1))))
          (a (ix3 p (0 : Fin 1) (0 : Fin 1))) (b (ix3 (0 : Fin 1) q (0 : Fin 1))) := by
  unfold k0_pay14
  show Scalar.select _ (IntOp.addi (IntOp.minsi _ (IntOp.maxsi _ (IntOp.subi
    (broadcastTo S128x128x1 a _ (ix3 p q (0 : Fin 1))) (broadcastTo S128x128x1 b _ (ix3 p q (0 : Fin 1)))))) _) _ = _
  rw [broadcastTo_a11_ab1_apply a _ p q 0, broadcastTo_1b1_ab1_apply b _ p q 0]
  rfl

theorem pay15_apply (a : IVec S128x1x1 32) (b : IVec S1x128x1 32) (c d : IVec S128x128x1 32) (p q : Fin 128) :
    k0_pay15 a b c d (ix3 p q (0 : Fin 1))
      = clsNarrow (eqb (c (ix3 p q (0 : Fin 1))) (d (ix3 p q (0 : Fin 1))))
          (a (ix3 p (0 : Fin 1) (0 : Fin 1))) (b (ix3 (0 : Fin 1) q (0 : Fin 1))) := by
  unfold k0_pay15
  show Scalar.select _ (IntOp.addi (IntOp.minsi _ (IntOp.maxsi _ (IntOp.subi
    (broadcastTo S128x128x1 a _ (ix3 p q (0 : Fin 1))) (broadcastTo S128x128x1 b _ (ix3 p q (0 : Fin 1)))))) _) _ = _
  rw [broadcastTo_a11_ab1_apply a _ p q 0, broadcastTo_1b1_ab1_apply b _ p q 0]
  rfl

theorem pay16_apply (v : Vec Ideal S66x128 .f32) (i : S66x128.Idx) : k0_pay16 v i = v i := rfl
theorem pay17_apply (v : Vec Ideal S66x128 .f32) (i : S66x128.Idx) : k0_pay17 v i = v i := rfl
/-! ## The one-hot rows and the three products -/

/-- The lane counter of a `[1, 1, c]` block: lane `r` holds the word `r`. -/
theorem iota_11c_apply {c : ℕ} (h : (⟨3, ![1, 1, c]⟩ : Shape).Iotas .tc 32 [2]) (r : Fin c) :
    iota .tc ⟨3, ![1, 1, c]⟩ 32 [2] h (ix3 (0 : Fin 1) (0 : Fin 1) r) = BitVec.ofNat 32 r.val := by
  show BitVec.ofNat 32 (0 * c + r.val) = _
  rw [Nat.zero_mul, Nat.zero_add]

/-- The one-hot matrix of a class grid: row `b·p + q`, lane `r`, is the float of the bit "the class at `(p, q)` is `r`". -/
theorem onehot_apply {c n : ℕ} (cl : IVec S128x128x1 32) (hb1 : S128x128x1.Broadcasts ⟨3, ![128, 128, c]⟩)
    (hi : (⟨3, ![1, 1, c]⟩ : Shape).Iotas .tc 32 [2]) (hb2 : (⟨3, ![1, 1, c]⟩ : Shape).Broadcasts ⟨3, ![128, 128, c]⟩)
    (hw : 1 < 32) (hbits : FTy.bits .bf16 < FTy.bits .f32) (hsc : (⟨3, ![128, 128, c]⟩ : Shape).ShapeCasts ⟨2, ![n, c]⟩)
    (p q : Fin 128) (r : Fin c) (m : Fin n) (hm : m.val = p.val * 128 + q.val) :
    (shapeCast ⟨2, ![n, c]⟩ (truncf (F := Ideal) .bf16 (sitofp .f32 (extui 32 (cmpi .eq (broadcastTo ⟨3, ![128, 128, c]⟩ cl hb1)
        (broadcastTo ⟨3, ![128, 128, c]⟩ (iota .tc ⟨3, ![1, 1, c]⟩ 32 [2] hi) hb2)) hw)) hbits) hsc : FVec Ideal ⟨2, ![n, c]⟩ .bf16) (ix2 m r)
      = (FloatOps.sitofp (F := Ideal) FTy.f32 ((IntOp.cmpi .eq (cl (ix3 p q (0 : Fin 1))) (BitVec.ofNat 32 r.val)).setWidth 32) : EReal) := by
  refine (shapeCast_abc_rc_apply _ hsc p q r m hm).trans ?_
  show FloatOps.sitofp (F := Ideal) FTy.f32 ((IntOp.cmpi .eq (broadcastTo ⟨3, ![128, 128, c]⟩ cl hb1 (ix3 p q r))
    (broadcastTo ⟨3, ![128, 128, c]⟩ (iota .tc ⟨3, ![1, 1, c]⟩ 32 [2] hi) hb2 (ix3 p q r))).setWidth 32) = _
  rw [broadcastTo_ab1_abc_apply cl hb1 p q r, broadcastTo_11c_abc_apply _ hb2 p q r, iota_11c_apply hi r]

/-! ### The wide product's index maps (one contracted axis of 66) -/

theorem lhs_wide_0 (i : S16384x128.Idx) (q : dot_S16384x66_S66x128_S16384x128_1_0_0_1_n_n.contr.Idx) :
    (dot_S16384x66_S66x128_S16384x128_1_0_0_1_n_n.lhsIdx i q 0).val = (i 0).val := by
  unfold DotDims.lhsIdx
  rw [dif_neg (show ¬(0 : Fin S16384x66.rank) ∈ dot_S16384x66_S66x128_S16384x128_1_0_0_1_n_n.lhsBatch by decide),
    dif_pos (show (0 : Fin S16384x66.rank) ∈ dot_S16384x66_S66x128_S16384x128_1_0_0_1_n_n.lhsNonContracting by decide)]
  rfl
theorem lhs_wide_1 (i : S16384x128.Idx) (q : dot_S16384x66_S66x128_S16384x128_1_0_0_1_n_n.contr.Idx) :
    (dot_S16384x66_S66x128_S16384x128_1_0_0_1_n_n.lhsIdx i q 1).val = (q ⟨0, by decide⟩).val :=
  dot_S16384x66_S66x128_S16384x128_1_0_0_1_n_n.lhsIdx_val_of_single rfl i q
theorem rhs_wide_0 (i : S16384x128.Idx) (q : dot_S16384x66_S66x128_S16384x128_1_0_0_1_n_n.contr.Idx) :
    (dot_S16384x66_S66x128_S16384x128_1_0_0_1_n_n.rhsIdx i q 0).val = (q ⟨0, by decide⟩).val :=
  dot_S16384x66_S66x128_S16384x128_1_0_0_1_n_n.rhsIdx_val_of_single rfl i q
theorem rhs_wide_1 (i : S16384x128.Idx) (q : dot_S16384x66_S66x128_S16384x128_1_0_0_1_n_n.contr.Idx) :
    (dot_S16384x66_S66x128_S16384x128_1_0_0_1_n_n.rhsIdx i q 1).val = (i 1).val := by
  unfold DotDims.rhsIdx
  rw [dif_neg (show ¬(1 : Fin S66x128.rank) ∈ dot_S16384x66_S66x128_S16384x128_1_0_0_1_n_n.rhsBatch by decide),
    dif_pos (show (1 : Fin S66x128.rank) ∈ dot_S16384x66_S66x128_S16384x128_1_0_0_1_n_n.rhsNonContracting by decide)]
  rfl

/-- A `[16384, 66]` by `[66, 128]` product into zeros, at row `m` and channel `k`: the sum over the 66 lanes. -/
theorem matmul_wide_apply (lhs : FVec Ideal S16384x66 .bf16) (rhs : FVec Ideal S66x128 .bf16) (m : Fin 16384) (k : Fin 128) :
    matmul dot_S16384x66_S66x128_S16384x128_1_0_0_1_n_n none lhs rhs (constant S16384x128 .f32 0x00000000#32) (ix2 m k)
      = ∑ c : Fin 66, lhs (ix2 m c) * rhs (ix2 c k) := by
  simp only [matmul]
  rw [Ideal.matmul_constant_zero_apply,
    ← Equiv.sum_comp (contrEquiv1 dot_S16384x66_S66x128_S16384x128_1_0_0_1_n_n 66 rfl rfl).symm]
  refine Finset.sum_congr rfl fun c _ => ?_
  have hc := contrEquiv1_symm_val dot_S16384x66_S66x128_S16384x128_1_0_0_1_n_n 66 rfl rfl c
  have el : dot_S16384x66_S66x128_S16384x128_1_0_0_1_n_n.lhsIdx (ix2 m k)
      ((contrEquiv1 dot_S16384x66_S66x128_S16384x128_1_0_0_1_n_n 66 rfl rfl).symm c) = ix2 m c :=
    funext fun a => Fin.ext (by
      match a with
      | ⟨0, _⟩ => exact lhs_wide_0 _ _
      | ⟨1, _⟩ => exact (lhs_wide_1 _ _).trans hc)
  have er : dot_S16384x66_S66x128_S16384x128_1_0_0_1_n_n.rhsIdx (ix2 m k)
      ((contrEquiv1 dot_S16384x66_S66x128_S16384x128_1_0_0_1_n_n 66 rfl rfl).symm c) = ix2 c k :=
    funext fun a => Fin.ext (by
      match a with
      | ⟨0, _⟩ => exact (rhs_wide_0 _ _).trans hc
      | ⟨1, _⟩ => exact rhs_wide_1 _ _)
  rw [el, er]

/-! ### The narrow product's index maps (one contracted axis of 6) -/

theorem lhs_narrow_0 (i : S16384x128.Idx) (q : dot_S16384x6_S6x128_S16384x128_1_0_0_1_n_n.contr.Idx) :
    (dot_S16384x6_S6x128_S16384x128_1_0_0_1_n_n.lhsIdx i q 0).val = (i 0).val := by
  unfold DotDims.lhsIdx
  rw [dif_neg (show ¬(0 : Fin S16384x6.rank) ∈ dot_S16384x6_S6x128_S16384x128_1_0_0_1_n_n.lhsBatch by decide),
    dif_pos (show (0 : Fin S16384x6.rank) ∈ dot_S16384x6_S6x128_S16384x128_1_0_0_1_n_n.lhsNonContracting by decide)]
  rfl
theorem lhs_narrow_1 (i : S16384x128.Idx) (q : dot_S16384x6_S6x128_S16384x128_1_0_0_1_n_n.contr.Idx) :
    (dot_S16384x6_S6x128_S16384x128_1_0_0_1_n_n.lhsIdx i q 1).val = (q ⟨0, by decide⟩).val :=
  dot_S16384x6_S6x128_S16384x128_1_0_0_1_n_n.lhsIdx_val_of_single rfl i q
theorem rhs_narrow_0 (i : S16384x128.Idx) (q : dot_S16384x6_S6x128_S16384x128_1_0_0_1_n_n.contr.Idx) :
    (dot_S16384x6_S6x128_S16384x128_1_0_0_1_n_n.rhsIdx i q 0).val = (q ⟨0, by decide⟩).val :=
  dot_S16384x6_S6x128_S16384x128_1_0_0_1_n_n.rhsIdx_val_of_single rfl i q
theorem rhs_narrow_1 (i : S16384x128.Idx) (q : dot_S16384x6_S6x128_S16384x128_1_0_0_1_n_n.contr.Idx) :
    (dot_S16384x6_S6x128_S16384x128_1_0_0_1_n_n.rhsIdx i q 1).val = (i 1).val := by
  unfold DotDims.rhsIdx
  rw [dif_neg (show ¬(1 : Fin S6x128.rank) ∈ dot_S16384x6_S6x128_S16384x128_1_0_0_1_n_n.rhsBatch by decide),
    dif_pos (show (1 : Fin S6x128.rank) ∈ dot_S16384x6_S6x128_S16384x128_1_0_0_1_n_n.rhsNonContracting by decide)]
  rfl

/-- A `[16384, 6]` by `[6, 128]` product into zeros, at row `m` and channel `k`: the sum over the 6 lanes. -/
theorem matmul_narrow_apply (lhs : FVec Ideal S16384x6 .bf16) (rhs : FVec Ideal S6x128 .bf16) (m : Fin 16384) (k : Fin 128) :
    matmul dot_S16384x6_S6x128_S16384x128_1_0_0_1_n_n none lhs rhs (constant S16384x128 .f32 0x00000000#32) (ix2 m k)
      = ∑ c : Fin 6, lhs (ix2 m c) * rhs (ix2 c k) := by
  simp only [matmul]
  rw [Ideal.matmul_constant_zero_apply,
    ← Equiv.sum_comp (contrEquiv1 dot_S16384x6_S6x128_S16384x128_1_0_0_1_n_n 6 rfl rfl).symm]
  refine Finset.sum_congr rfl fun c _ => ?_
  have hc := contrEquiv1_symm_val dot_S16384x6_S6x128_S16384x128_1_0_0_1_n_n 6 rfl rfl c
  have el : dot_S16384x6_S6x128_S16384x128_1_0_0_1_n_n.lhsIdx (ix2 m k)
      ((contrEquiv1 dot_S16384x6_S6x128_S16384x128_1_0_0_1_n_n 6 rfl rfl).symm c) = ix2 m c :=
    funext fun a => Fin.ext (by
      match a with
      | ⟨0, _⟩ => exact lhs_narrow_0 _ _
      | ⟨1, _⟩ => exact (lhs_narrow_1 _ _).trans hc)
  have er : dot_S16384x6_S6x128_S16384x128_1_0_0_1_n_n.rhsIdx (ix2 m k)
      ((contrEquiv1 dot_S16384x6_S6x128_S16384x128_1_0_0_1_n_n 6 rfl rfl).symm c) = ix2 c k :=
    funext fun a => Fin.ext (by
      match a with
      | ⟨0, _⟩ => exact (rhs_narrow_0 _ _).trans hc
      | ⟨1, _⟩ => exact rhs_narrow_1 _ _)
  rw [el, er]

/-! ### A one-hot matrix against a table picks the class's row -/

/-- The wide one-hot matrix of a class grid times a 66-row table: at row `128·p + q`, channel `k`, the table's row
    (class at `(p, q)`). -/
theorem classRow_wide (cl : IVec S128x128x1 32) (w : FVec Ideal S66x128 .bf16)
    (hb1 : S128x128x1.Broadcasts S128x128x66) (hi : S1x1x66.Iotas .tc 32 [2]) (hb2 : S1x1x66.Broadcasts S128x128x66)
    (hw : 1 < 32) (hbits : FTy.bits .bf16 < FTy.bits .f32) (hsc : S128x128x66.ShapeCasts S16384x66)
    (p q k : Fin 128) (m : Fin 16384) (hm : m.val = p.val * 128 + q.val) (d : BitVec 32)
    (ed : cl (ix3 p q (0 : Fin 1)) = d) (hd : d.toNat < 66) :
    matmul dot_S16384x66_S66x128_S16384x128_1_0_0_1_n_n none
        (shapeCast S16384x66 (truncf (F := Ideal) .bf16 (sitofp .f32 (extui 32 (cmpi .eq (broadcastTo S128x128x66 cl hb1)
          (broadcastTo S128x128x66 (iota .tc S1x1x66 32 [2] hi) hb2)) hw)) hbits) hsc)
        w (constant S16384x128 .f32 0x00000000#32) (ix2 m k)
      = w (ix2 (⟨d.toNat, hd⟩ : Fin 66) k) := by
  subst ed
  refine (matmul_wide_apply _ w m k).trans ?_
  refine (Finset.sum_congr rfl fun c _ =>
    congrArg (· * w (ix2 c k)) (onehot_apply cl hb1 hi hb2 hw hbits hsc p q c m hm)).trans ?_
  exact ClassFacts.onehot_sum 66 _ hd (by decide) fun c => w (ix2 c k)

/-- The narrow one-hot matrix of a class grid times a 6-row table: at row `128·p + q`, channel `k`, the table's row
    (class at `(p, q)`). -/
theorem classRow_narrow (cl : IVec S128x128x1 32) (w : FVec Ideal S6x128 .bf16)
    (hb1 : S128x128x1.Broadcasts S128x128x6) (hi : S1x1x6.Iotas .tc 32 [2]) (hb2 : S1x1x6.Broadcasts S128x128x6)
    (hw : 1 < 32) (hbits : FTy.bits .bf16 < FTy.bits .f32) (hsc : S128x128x6.ShapeCasts S16384x6)
    (p q k : Fin 128) (m : Fin 16384) (hm : m.val = p.val * 128 + q.val) (d : BitVec 32)
    (ed : cl (ix3 p q (0 : Fin 1)) = d) (hd : d.toNat < 6) :
    matmul dot_S16384x6_S6x128_S16384x128_1_0_0_1_n_n none
        (shapeCast S16384x6 (truncf (F := Ideal) .bf16 (sitofp .f32 (extui 32 (cmpi .eq (broadcastTo S128x128x6 cl hb1)
          (broadcastTo S128x128x6 (iota .tc S1x1x6 32 [2] hi) hb2)) hw)) hbits) hsc)
        w (constant S16384x128 .f32 0x00000000#32) (ix2 m k)
      = w (ix2 (⟨d.toNat, hd⟩ : Fin 6) k) := by
  subst ed
  refine (matmul_narrow_apply _ w m k).trans ?_
  refine (Finset.sum_congr rfl fun c _ =>
    congrArg (· * w (ix2 c k)) (onehot_apply cl hb1 hi hb2 hw hbits hsc p q c m hm)).trans ?_
  exact ClassFacts.onehot_sum 6 _ hd (by decide) fun c => w (ix2 c k)

/-! ## The stored value at an index -/

/-- A row below the table's height is not clamped. -/
theorem rowOf_of_lt (n : Nat) (hn : 0 < n) (v : (⟨2, ![n, 128]⟩ : Shape).Idx → EReal) (d : Nat) (hd : d < n) (k : Fin 128) :
    rowOf n hn v d k = v (ix2 (⟨d, hd⟩ : Fin n) k) := by
  unfold rowOf
  have e : (⟨min d (n - 1), by omega⟩ : Fin n) = ⟨d, hd⟩ := Fin.ext (by show min d (n - 1) = d; omega)
  rw [e]

/-- The entity gate bit at `(p, q)` as a float, spread over the channels. -/
theorem gate_apply (g : IVec S128x128x1 1) (hw : 1 < 32) (hb : S128x128x1.Broadcasts S128x128x128) (p q k : Fin 128) :
    broadcastTo S128x128x128 (sitofp (F := Ideal) .f32 (extui 32 g hw)) hb (ix3 p q k) = boolE (g (ix3 p q (0 : Fin 1))) :=
  (broadcastTo_ab1_abc_apply _ hb p q k).trans (ClassFacts.sitofp_bit _)

/-- The one table row `[1, 128]` spread over the pair grid: channel `k` everywhere. -/
theorem tableRow_apply (w : Vec Ideal S1x128 .f32) (h1 : S1x128.ShapeCasts S128) (h2 : S128.ShapeCasts S1x1x128)
    (hb : S1x1x128.Broadcasts S128x128x128) (p q k : Fin 128) :
    broadcastTo S128x128x128 (shapeCast S1x1x128 (shapeCast S128 w h1) h2) hb (ix3 p q k) = w (ix2 (0 : Fin 1) k) :=
  (broadcastTo_11c_abc_apply _ hb p q k).trans ((shapeCast_a_11a_apply _ h2 0 0 k).trans (shapeCast_1a_a_apply w h1 k))

/-- The value the body stores, at pair `(p, q)` and channel `k`, from the gate bit, the three class grids and the four
    pieces of the table: the three class rows plus the gated extra row. -/
theorem pay1_apply (g : IVec S128x128x1 1) (c1 c2 c3 : IVec S128x128x1 32) (w1 w2 : FVec Ideal S66x128 .bf16)
    (w3 : Vec Ideal S1x128 .f32) (w4 : Vec Ideal S6x128 .f32) (p q k : Fin 128) (d1 d2 d3 : BitVec 32) (b : BitVec 1)
    (e1 : c1 (ix3 p q (0 : Fin 1)) = d1) (e2 : c2 (ix3 p q (0 : Fin 1)) = d2) (e3 : c3 (ix3 p q (0 : Fin 1)) = d3)
    (eg : g (ix3 p q (0 : Fin 1)) = b) (h1 : d1.toNat < 66) (h2 : d2.toNat < 66) (h3 : d3.toNat < 6) :
    k0_pay1 (F := Ideal) g c1 c2 c3 w1 w2 w3 w4 (ix4 (0 : Fin 1) p q k)
      = ((w1 (ix2 (⟨d1.toNat, h1⟩ : Fin 66) k) + w2 (ix2 (⟨d2.toNat, h2⟩ : Fin 66) k))
          + w4 (ix2 (⟨d3.toNat, h3⟩ : Fin 6) k)) + boolE b * w3 (ix2 (0 : Fin 1) k) := by
  subst eg
  unfold k0_pay1
  refine (shapeCast_abc_1abc_apply _ _ 0 p q k).trans ?_
  refine (addf_apply _ _ _).trans (congrArg₂ (· + ·) ?_ ?_)
  · have hm : (⟨p.val * 128 + q.val, by omega⟩ : Fin 16384).val = p.val * 128 + q.val := rfl
    refine (shapeCast_rc_abc_apply _ _ p q k ⟨p.val * 128 + q.val, by omega⟩ hm).trans ?_
    refine (addf_apply _ _ _).trans (congrArg₂ (· + ·) ?_ ?_)
    · refine (addf_apply _ _ _).trans (congrArg₂ (· + ·) ?_ ?_)
      · exact classRow_wide c1 w1 _ _ _ _ _ _ p q k _ hm d1 e1 h1
      · exact classRow_wide c2 w2 _ _ _ _ _ _ p q k _ hm d2 e2 h2
    · exact classRow_narrow c3 _ _ _ _ _ _ _ p q k _ hm d3 e3 h3
  · refine (mulf_apply _ _ _).trans (congrArg₂ (· * ·) ?_ ?_)
    · exact gate_apply g _ _ p q k
    · exact tableRow_apply w3 _ _ _ p q k

/-- The kernel's arithmetic at the idealized instance: at pair `(p, q)` of the tile and channel `k` the stored value is
    the sum of the table rows of the sequence class, the token class and the symmetry class, plus the extra row when the
    two entities agree. -/
theorem pay_apply (x0 x1 x2 x3 x4 x5 x6 x7 x8 x9 : Vec Ideal S1x128 .i32) (v73 v75 : Vec Ideal S66x128 .f32)
    (v77 : Vec Ideal S1x128 .f32) (v78 : Vec Ideal S6x128 .f32) (p q k : Fin 128) :
    k0_pay1 (F := Ideal) (k0_pay12 (k0_pay10 x4) (k0_pay11 x5)) (k0_pay13 (k0_pay2 x0) (k0_pay3 x1) (k0_pay9 x2 x3))
        (k0_pay14 (k0_pay6 x8) (k0_pay7 x9) (k0_pay8 x0 x1) (k0_pay9 x2 x3))
        (k0_pay15 (k0_pay4 x6) (k0_pay5 x7) (k0_pay10 x4) (k0_pay11 x5)) (k0_pay16 v73) (k0_pay17 v75) v77 v78
        (ix4 (0 : Fin 1) p q k)
      = ((rowOf 66 (by decide) v73 (clsWide (eqb (x2 (ix2 0 p)) (x3 (ix2 0 q))) (x0 (ix2 0 p)) (x1 (ix2 0 q))).toNat k
            + rowOf 66 (by decide) v75 (clsWide (IntOp.andi (eqb (x2 (ix2 0 p)) (x3 (ix2 0 q))) (eqb (x0 (ix2 0 p)) (x1 (ix2 0 q))))
                  (x8 (ix2 0 p)) (x9 (ix2 0 q))).toNat k)
          + rowOf 6 (by decide) v78 (clsNarrow (eqb (x4 (ix2 0 p)) (x5 (ix2 0 q))) (x6 (ix2 0 p)) (x7 (ix2 0 q))).toNat k)
        + boolE (eqb (x4 (ix2 0 p)) (x5 (ix2 0 q))) * v77 (ix2 0 k) := by
  have e1 : k0_pay13 (k0_pay2 x0) (k0_pay3 x1) (k0_pay9 x2 x3) (ix3 p q (0 : Fin 1))
      = clsWide (eqb (x2 (ix2 0 p)) (x3 (ix2 0 q))) (x0 (ix2 0 p)) (x1 (ix2 0 q)) := by
    rw [pay13_apply, pay9_apply, pay2_apply, pay3_apply]
  have e2 : k0_pay14 (k0_pay6 x8) (k0_pay7 x9) (k0_pay8 x0 x1) (k0_pay9 x2 x3) (ix3 p q (0 : Fin 1))
      = clsWide (IntOp.andi (eqb (x2 (ix2 0 p)) (x3 (ix2 0 q))) (eqb (x0 (ix2 0 p)) (x1 (ix2 0 q)))) (x8 (ix2 0 p)) (x9 (ix2 0 q)) := by
    rw [pay14_apply, pay9_apply, pay8_apply, pay6_apply, pay7_apply]
  have e3 : k0_pay15 (k0_pay4 x6) (k0_pay5 x7) (k0_pay10 x4) (k0_pay11 x5) (ix3 p q (0 : Fin 1))
      = clsNarrow (eqb (x4 (ix2 0 p)) (x5 (ix2 0 q))) (x6 (ix2 0 p)) (x7 (ix2 0 q)) := by
    rw [pay15_apply, pay10_apply, pay11_apply, pay4_apply, pay5_apply]
  have eg : k0_pay12 (k0_pay10 x4) (k0_pay11 x5) (ix3 p q (0 : Fin 1)) = eqb (x4 (ix2 0 p)) (x5 (ix2 0 q)) := by
    rw [pay12_apply, pay10_apply, pay11_apply]
  have h1 := Nat.lt_succ_of_le (ClassFacts.clsWide_le (eqb (x2 (ix2 0 p)) (x3 (ix2 0 q))) (x0 (ix2 0 p)) (x1 (ix2 0 q)))
  have h2 := Nat.lt_succ_of_le (ClassFacts.clsWide_le (IntOp.andi (eqb (x2 (ix2 0 p)) (x3 (ix2 0 q))) (eqb (x0 (ix2 0 p)) (x1 (ix2 0 q))))
    (x8 (ix2 0 p)) (x9 (ix2 0 q)))
  have h3 := Nat.lt_succ_of_le (ClassFacts.clsNarrow_le (eqb (x4 (ix2 0 p)) (x5 (ix2 0 q))) (x6 (ix2 0 p)) (x7 (ix2 0 q)))
  refine (pay1_apply _ _ _ _ _ _ v77 v78 p q k _ _ _ _ e1 e2 e3 eg h1 h2 h3).trans ?_
  rw [rowOf_of_lt 66 _ v73 _ h1 k, rowOf_of_lt 66 _ v75 _ h2 k, rowOf_of_lt 6 _ v78 _ h3 k]
  rfl

end Cert.Proof.PayValue

end
-- ==== Proof.KernelValue.lean ====
/-
  What the relative-position encoding's kernel leaves in its result array, as one function of the argument arrays.

  The grid has 8 × 8 points; point (a, b) handles rows 128·a … 128·a + 127 and columns 128·b … 128·b + 127 of the pairwise
  plane. Its row windows hold positions 128·a + p of each integer feature, its column windows positions 128·b + q, and
  its table window the whole weight table, of which the body reads rows 0–65, 66–131, 132 and 133–138 apart. So entry
  (p, q, k) of the stored tile is the encoding at positions (128·a + p, 128·b + q), channel k; the 64 tiles cover the
  result array, which therefore ends at the encoding everywhere.
-/
import proofs.«416035_j8624294330880_2_alg».proof.Proof.KernelIdealFrame
import proofs.«416035_j8624294330880_2_alg».proof.Proof.PayValue
import Idealize.ShloMosaic.Lib.Pipeline.Value

set_option maxRecDepth 16384

noncomputable section

namespace Cert.KernelIdeal.Val

open Cert.KernelIdeal Cert.KernelIdeal.Gen Cert.KernelIdeal.Frm Cert.Proof Cert.Proof.Spec
open Idealize.ShloMosaic Idealize.ShloMosaic.TcCoe Idealize.ShloMosaic.Tactic Idealize.ShloMosaic.ValueIdx
open Idealize.SL Idealize.SL.Sem
open Idealize.ShloMosaic.Pipeline (Dat)

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The four row ranges of the table the body loads: the sequence classes' rows, the token classes' rows, the entity
    row, the symmetry classes' rows. -/
abbrev rSeq : Rect S139x128 := Rect.unit (s := S139x128) ![0, 0] S66x128.size inb_S139x128_S66x128_0_0
abbrev rTok : Rect S139x128 := Rect.unit (s := S139x128) ![66, 0] S66x128.size inb_S139x128_S66x128_66_0
abbrev rEnt : Rect S139x128 := Rect.unit (s := S139x128) ![132, 0] S1x128.size inb_S139x128_S1x128_132_0
abbrev rSym : Rect S139x128 := Rect.unit (s := S139x128) ![133, 0] S6x128.size inb_S139x128_S6x128_133_0

section AnyInstance
variable {F : FTy → Type} [FloatOps F]

/-- The one piece the run stores is the body's arithmetic of the loaded blocks. -/
theorem outBlk_eq (c : Dev nD) (i : grid0.Coords) (arg2 : Memref sig .tc .vmem S1x128 .i32) (harg2 : arg2.IsWhole) (arg3 : Memref sig .tc .vmem S1x128 .i32) (harg3 : arg3.IsWhole) (arg4 : Memref sig .tc .vmem S1x128 .i32) (harg4 : arg4.IsWhole) (arg5 : Memref sig .tc .vmem S1x128 .i32) (harg5 : arg5.IsWhole) (arg6 : Memref sig .tc .vmem S1x128 .i32) (harg6 : arg6.IsWhole) (arg7 : Memref sig .tc .vmem S1x128 .i32) (harg7 : arg7.IsWhole) (arg8 : Memref sig .tc .vmem S1x128 .i32) (harg8 : arg8.IsWhole) (arg9 : Memref sig .tc .vmem S1x128 .i32) (harg9 : arg9.IsWhole) (arg10 : Memref sig .tc .vmem S1x128 .i32) (harg10 : arg10.IsWhole) (arg11 : Memref sig .tc .vmem S1x128 .i32) (harg11 : arg11.IsWhole) (arg12 : Memref sig .tc .vmem S139x128 .f32) (harg12 : arg12.IsWhole) (arg13 : Memref sig .tc .vmem S1x128x128x128 .f32) (harg13 : arg13.IsWhole)
    (x0 : Vec F S1x128 .i32) (x1 : Vec F S1x128 .i32) (x2 : Vec F S1x128 .i32) (x3 : Vec F S1x128 .i32) (x4 : Vec F S1x128 .i32) (x5 : Vec F S1x128 .i32) (x6 : Vec F S1x128 .i32) (x7 : Vec F S1x128 .i32) (x8 : Vec F S1x128 .i32) (x9 : Vec F S1x128 .i32) (x10 : Vec F S139x128 .f32) :
    outBlk (F := F) c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10
      = k0_pay1 (k0_pay12 (k0_pay10 x4) (k0_pay11 x5)) (k0_pay13 (k0_pay2 x0) (k0_pay3 x1) (k0_pay9 x2 x3))
          (k0_pay14 (k0_pay6 x8) (k0_pay7 x9) (k0_pay8 x0 x1) (k0_pay9 x2 x3))
          (k0_pay15 (k0_pay4 x6) (k0_pay5 x7) (k0_pay10 x4) (k0_pay11 x5))
          (k0_pay16 (View.ld x10 rSeq)) (k0_pay17 (View.ld x10 rTok)) (View.ld x10 rEnt) (View.ld x10 rSym) := by
  unfold outBlk
  rw [View.read_writes_eq_canon _ _ _ (cover c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10)]
  unfold kernelRun
  dsimp only
  sl_unfold_words
  rw [View.canon_unit_zero hz4]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x128) hz2]

end AnyInstance

/-! ## The index maps, decided over the grid -/

/-- A row window's block index is the output tile's row index. -/
theorem idxR : ∀ t : Fin cfg0.N,
    (win0_0.index t (0 : Fin 2) = 0 ∧ win0_0.index t (1 : Fin 2) = win0_11.index t (1 : Fin 4))
    ∧ (win0_2.index t (0 : Fin 2) = 0 ∧ win0_2.index t (1 : Fin 2) = win0_11.index t (1 : Fin 4))
    ∧ (win0_4.index t (0 : Fin 2) = 0 ∧ win0_4.index t (1 : Fin 2) = win0_11.index t (1 : Fin 4))
    ∧ (win0_6.index t (0 : Fin 2) = 0 ∧ win0_6.index t (1 : Fin 2) = win0_11.index t (1 : Fin 4))
    ∧ (win0_8.index t (0 : Fin 2) = 0 ∧ win0_8.index t (1 : Fin 2) = win0_11.index t (1 : Fin 4)) :=
  (by decide +kernel : ∀ t : Fin grid0.N, _)
/-- A column window's block index is the output tile's column index. -/
theorem idxC : ∀ t : Fin cfg0.N,
    (win0_1.index t (0 : Fin 2) = 0 ∧ win0_1.index t (1 : Fin 2) = win0_11.index t (2 : Fin 4))
    ∧ (win0_3.index t (0 : Fin 2) = 0 ∧ win0_3.index t (1 : Fin 2) = win0_11.index t (2 : Fin 4))
    ∧ (win0_5.index t (0 : Fin 2) = 0 ∧ win0_5.index t (1 : Fin 2) = win0_11.index t (2 : Fin 4))
    ∧ (win0_7.index t (0 : Fin 2) = 0 ∧ win0_7.index t (1 : Fin 2) = win0_11.index t (2 : Fin 4))
    ∧ (win0_9.index t (0 : Fin 2) = 0 ∧ win0_9.index t (1 : Fin 2) = win0_11.index t (2 : Fin 4)) :=
  (by decide +kernel : ∀ t : Fin grid0.N, _)
/-- The table's window is the whole table at every point. -/
theorem idxW : ∀ t : Fin cfg0.N, win0_10.index t (0 : Fin 2) = 0 ∧ win0_10.index t (1 : Fin 2) = 0 :=
  (by decide +kernel : ∀ t : Fin grid0.N, _)
/-- The output tile's indices stay in the 8 × 8 plane. -/
theorem idxO : ∀ t : Fin cfg0.N, win0_11.index t (0 : Fin 4) = 0 ∧ win0_11.index t (1 : Fin 4) ≤ 7
    ∧ win0_11.index t (2 : Fin 4) ≤ 7 ∧ win0_11.index t (3 : Fin 4) = 0 :=
  (by decide +kernel : ∀ t : Fin grid0.N, _)
/-- Every tile of the plane is some point's. -/
theorem idx_onto : ∀ (q1 q2 : Fin 8), ∃ t : Fin cfg0.N, win0_11.index t = ![0, q1.val, q2.val, 0] :=
  (by decide +kernel : ∀ (q1 q2 : Fin 8), ∃ t : Fin grid0.N, win0_11.index t = ![0, q1.val, q2.val, 0])

variable (m : (ℓ : Loc nD τ sig) → Buf (Elt Ideal) ℓ) (ρ : Dev nD → PrngReg)

/-! ## The input blocks read off the arrays -/

theorem blk_0 (c : Dev nD) (t : Fin cfg0.N) (p : Fin 128) (I : Fin 1024) (hI : I.val = win0_11.index t (1 : Fin 4) * 128 + p.val) :
    iblk m c 0 t (ix2 (0 : Fin 1) p) = V m c main_arg0 (ix2 (0 : Fin 1) I) := by
  obtain ⟨⟨a0, a1⟩, -, -, -, -⟩ := idxR t
  show V m c main_arg0 (((cfg0.win 0).blk t).view.emb (ix2 (0 : Fin 1) p)) = _
  refine congrArg _ ?_
  funext a; apply Fin.ext
  match a with
  | ⟨0, _⟩ => show win0_0.index t (0 : Fin 2) * 1 + 1 * 0 = 0; omega
  | ⟨1, _⟩ => show win0_0.index t (1 : Fin 2) * 128 + 1 * p.val = I.val; omega

theorem blk_1 (c : Dev nD) (t : Fin cfg0.N) (p : Fin 128) (I : Fin 1024) (hI : I.val = win0_11.index t (2 : Fin 4) * 128 + p.val) :
    iblk m c 1 t (ix2 (0 : Fin 1) p) = V m c main_arg0 (ix2 (0 : Fin 1) I) := by
  obtain ⟨⟨a0, a1⟩, -, -, -, -⟩ := idxC t
  show V m c main_arg0 (((cfg0.win 1).blk t).view.emb (ix2 (0 : Fin 1) p)) = _
  refine congrArg _ ?_
  funext a; apply Fin.ext
  match a with
  | ⟨0, _⟩ => show win0_1.index t (0 : Fin 2) * 1 + 1 * 0 = 0; omega
  | ⟨1, _⟩ => show win0_1.index t (1 : Fin 2) * 128 + 1 * p.val = I.val; omega

theorem blk_2 (c : Dev nD) (t : Fin cfg0.N) (p : Fin 128) (I : Fin 1024) (hI : I.val = win0_11.index t (1 : Fin 4) * 128 + p.val) :
    iblk m c 2 t (ix2 (0 : Fin 1) p) = V m c main_arg1 (ix2 (0 : Fin 1) I) := by
  obtain ⟨-, ⟨a0, a1⟩, -, -, -⟩ := idxR t
  show V m c main_arg1 (((cfg0.win 2).blk t).view.emb (ix2 (0 : Fin 1) p)) = _
  refine congrArg _ ?_
  funext a; apply Fin.ext
  match a with
  | ⟨0, _⟩ => show win0_2.index t (0 : Fin 2) * 1 + 1 * 0 = 0; omega
  | ⟨1, _⟩ => show win0_2.index t (1 : Fin 2) * 128 + 1 * p.val = I.val; omega

theorem blk_3 (c : Dev nD) (t : Fin cfg0.N) (p : Fin 128) (I : Fin 1024) (hI : I.val = win0_11.index t (2 : Fin 4) * 128 + p.val) :
    iblk m c 3 t (ix2 (0 : Fin 1) p) = V m c main_arg1 (ix2 (0 : Fin 1) I) := by
  obtain ⟨-, ⟨a0, a1⟩, -, -, -⟩ := idxC t
  show V m c main_arg1 (((cfg0.win 3).blk t).view.emb (ix2 (0 : Fin 1) p)) = _
  refine congrArg _ ?_
  funext a; apply Fin.ext
  match a with
  | ⟨0, _⟩ => show win0_3.index t (0 : Fin 2) * 1 + 1 * 0 = 0; omega
  | ⟨1, _⟩ => show win0_3.index t (1 : Fin 2) * 128 + 1 * p.val = I.val; omega

theorem blk_4 (c : Dev nD) (t : Fin cfg0.N) (p : Fin 128) (I : Fin 1024) (hI : I.val = win0_11.index t (1 : Fin 4) * 128 + p.val) :
    iblk m c 4 t (ix2 (0 : Fin 1) p) = V m c main_arg3 (ix2 (0 : Fin 1) I) := by
  obtain ⟨-, -, ⟨a0, a1⟩, -, -⟩ := idxR t
  show V m c main_arg3 (((cfg0.win 4).blk t).view.emb (ix2 (0 : Fin 1) p)) = _
  refine congrArg _ ?_
  funext a; apply Fin.ext
  match a with
  | ⟨0, _⟩ => show win0_4.index t (0 : Fin 2) * 1 + 1 * 0 = 0; omega
  | ⟨1, _⟩ => show win0_4.index t (1 : Fin 2) * 128 + 1 * p.val = I.val; omega

theorem blk_5 (c : Dev nD) (t : Fin cfg0.N) (p : Fin 128) (I : Fin 1024) (hI : I.val = win0_11.index t (2 : Fin 4) * 128 + p.val) :
    iblk m c 5 t (ix2 (0 : Fin 1) p) = V m c main_arg3 (ix2 (0 : Fin 1) I) := by
  obtain ⟨-, -, ⟨a0, a1⟩, -, -⟩ := idxC t
  show V m c main_arg3 (((cfg0.win 5).blk t).view.emb (ix2 (0 : Fin 1) p)) = _
  refine congrArg _ ?_
  funext a; apply Fin.ext
  match a with
  | ⟨0, _⟩ => show win0_5.index t (0 : Fin 2) * 1 + 1 * 0 = 0; omega
  | ⟨1, _⟩ => show win0_5.index t (1 : Fin 2) * 128 + 1 * p.val = I.val; omega

theorem blk_6 (c : Dev nD) (t : Fin cfg0.N) (p : Fin 128) (I : Fin 1024) (hI : I.val = win0_11.index t (1 : Fin 4) * 128 + p.val) :
    iblk m c 6 t (ix2 (0 : Fin 1) p) = V m c main_arg2 (ix2 (0 : Fin 1) I) := by
  obtain ⟨-, -, -, ⟨a0, a1⟩, -⟩ := idxR t
  show V m c main_arg2 (((cfg0.win 6).blk t).view.emb (ix2 (0 : Fin 1) p)) = _
  refine congrArg _ ?_
  funext a; apply Fin.ext
  match a with
  | ⟨0, _⟩ => show win0_6.index t (0 : Fin 2) * 1 + 1 * 0 = 0; omega
  | ⟨1, _⟩ => show win0_6.index t (1 : Fin 2) * 128 + 1 * p.val = I.val; omega

theorem blk_7 (c : Dev nD) (t : Fin cfg0.N) (p : Fin 128) (I : Fin 1024) (hI : I.val = win0_11.index t (2 : Fin 4) * 128 + p.val) :
    iblk m c 7 t (ix2 (0 : Fin 1) p) = V m c main_arg2 (ix2 (0 : Fin 1) I) := by
  obtain ⟨-, -, -, ⟨a0, a1⟩, -⟩ := idxC t
  show V m c main_arg2 (((cfg0.win 7).blk t).view.emb (ix2 (0 : Fin 1) p)) = _
  refine congrArg _ ?_
  funext a; apply Fin.ext
  match a with
  | ⟨0, _⟩ => show win0_7.index t (0 : Fin 2) * 1 + 1 * 0 = 0; omega
  | ⟨1, _⟩ => show win0_7.index t (1 : Fin 2) * 128 + 1 * p.val = I.val; omega

theorem blk_8 (c : Dev nD) (t : Fin cfg0.N) (p : Fin 128) (I : Fin 1024) (hI : I.val = win0_11.index t (1 : Fin 4) * 128 + p.val) :
    iblk m c 8 t (ix2 (0 : Fin 1) p) = V m c main_arg4 (ix2 (0 : Fin 1) I) := by
  obtain ⟨-, -, -, -, ⟨a0, a1⟩⟩ := idxR t
  show V m c main_arg4 (((cfg0.win 8).blk t).view.emb (ix2 (0 : Fin 1) p)) = _
  refine congrArg _ ?_
  funext a; apply Fin.ext
  match a with
  | ⟨0, _⟩ => show win0_8.index t (0 : Fin 2) * 1 + 1 * 0 = 0; omega
  | ⟨1, _⟩ => show win0_8.index t (1 : Fin 2) * 128 + 1 * p.val = I.val; omega

theorem blk_9 (c : Dev nD) (t : Fin cfg0.N) (p : Fin 128) (I : Fin 1024) (hI : I.val = win0_11.index t (2 : Fin 4) * 128 + p.val) :
    iblk m c 9 t (ix2 (0 : Fin 1) p) = V m c main_arg4 (ix2 (0 : Fin 1) I) := by
  obtain ⟨-, -, -, -, ⟨a0, a1⟩⟩ := idxC t
  show V m c main_arg4 (((cfg0.win 9).blk t).view.emb (ix2 (0 : Fin 1) p)) = _
  refine congrArg _ ?_
  funext a; apply Fin.ext
  match a with
  | ⟨0, _⟩ => show win0_9.index t (0 : Fin 2) * 1 + 1 * 0 = 0; omega
  | ⟨1, _⟩ => show win0_9.index t (1 : Fin 2) * 128 + 1 * p.val = I.val; omega

/-! ## The table's row ranges read off the array -/

/-- Row `a` of the rows loaded from offset `off` is row `off + a` of the table. -/
theorem tbl_seq (c : Dev nD) (t : Fin cfg0.N) (a : Fin 66) (k : Fin 128) :
    View.ld (iblk m c 10 t) rSeq (ix2 a k) = V m c main_arg5 (ix2 (⟨a.val, by omega⟩ : Fin 139) k) := by
  obtain ⟨w0, w1⟩ := idxW t
  show V m c main_arg5 (((cfg0.win 10).blk t).view.emb (rSeq.idx (ix2 a k))) = _
  refine congrArg _ ?_
  funext b; apply Fin.ext
  match b with
  | ⟨0, _⟩ => show win0_10.index t (0 : Fin 2) * 139 + 1 * (0 + 1 * a.val) = a.val; omega
  | ⟨1, _⟩ => show win0_10.index t (1 : Fin 2) * 128 + 1 * (0 + 1 * k.val) = k.val; omega
theorem tbl_tok (c : Dev nD) (t : Fin cfg0.N) (a : Fin 66) (k : Fin 128) :
    View.ld (iblk m c 10 t) rTok (ix2 a k) = V m c main_arg5 (ix2 (⟨66 + a.val, by omega⟩ : Fin 139) k) := by
  obtain ⟨w0, w1⟩ := idxW t
  show V m c main_arg5 (((cfg0.win 10).blk t).view.emb (rTok.idx (ix2 a k))) = _
  refine congrArg _ ?_
  funext b; apply Fin.ext
  match b with
  | ⟨0, _⟩ => show win0_10.index t (0 : Fin 2) * 139 + 1 * (66 + 1 * a.val) = 66 + a.val; omega
  | ⟨1, _⟩ => show win0_10.index t (1 : Fin 2) * 128 + 1 * (0 + 1 * k.val) = k.val; omega
theorem tbl_ent (c : Dev nD) (t : Fin cfg0.N) (k : Fin 128) :
    View.ld (iblk m c 10 t) rEnt (ix2 (0 : Fin 1) k) = V m c main_arg5 (ix2 (132 : Fin 139) k) := by
  obtain ⟨w0, w1⟩ := idxW t
  show V m c main_arg5 (((cfg0.win 10).blk t).view.emb (rEnt.idx (ix2 (0 : Fin 1) k))) = _
  refine congrArg _ ?_
  funext b; apply Fin.ext
  match b with
  | ⟨0, _⟩ => show win0_10.index t (0 : Fin 2) * 139 + 1 * (132 + 1 * 0) = 132; omega
  | ⟨1, _⟩ => show win0_10.index t (1 : Fin 2) * 128 + 1 * (0 + 1 * k.val) = k.val; omega
theorem tbl_sym (c : Dev nD) (t : Fin cfg0.N) (a : Fin 6) (k : Fin 128) :
    View.ld (iblk m c 10 t) rSym (ix2 a k) = V m c main_arg5 (ix2 (⟨133 + a.val, by omega⟩ : Fin 139) k) := by
  obtain ⟨w0, w1⟩ := idxW t
  show V m c main_arg5 (((cfg0.win 10).blk t).view.emb (rSym.idx (ix2 a k))) = _
  refine congrArg _ ?_
  funext b; apply Fin.ext
  match b with
  | ⟨0, _⟩ => show win0_10.index t (0 : Fin 2) * 139 + 1 * (133 + 1 * a.val) = 133 + a.val; omega
  | ⟨1, _⟩ => show win0_10.index t (1 : Fin 2) * 128 + 1 * (0 + 1 * k.val) = k.val; omega

/-- A class's row among the loaded rows is the row at the range's offset plus the class in the table. -/
theorem row_seq (c : Dev nD) (t : Fin cfg0.N) (d : Nat) (hd : d ≤ 65) (k : Fin 128) :
    rowOf 66 (by decide) (View.ld (iblk m c 10 t) rSeq) d k = rowOf 139 (by decide) (V m c main_arg5) d k := by
  unfold rowOf
  rw [tbl_seq]
  refine congrArg _ ?_
  refine congrArg (fun z => ix2 z k) (Fin.ext ?_)
  show min d (66 - 1) = min d (139 - 1)
  omega
theorem row_tok (c : Dev nD) (t : Fin cfg0.N) (d : Nat) (hd : d ≤ 65) (k : Fin 128) :
    rowOf 66 (by decide) (View.ld (iblk m c 10 t) rTok) d k = rowOf 139 (by decide) (V m c main_arg5) (66 + d) k := by
  unfold rowOf
  rw [tbl_tok]
  refine congrArg _ ?_
  refine congrArg (fun z => ix2 z k) (Fin.ext ?_)
  show 66 + min d (66 - 1) = min (66 + d) (139 - 1)
  omega
theorem row_sym (c : Dev nD) (t : Fin cfg0.N) (d : Nat) (hd : d ≤ 5) (k : Fin 128) :
    rowOf 6 (by decide) (View.ld (iblk m c 10 t) rSym) d k = rowOf 139 (by decide) (V m c main_arg5) (133 + d) k := by
  unfold rowOf
  rw [tbl_sym]
  refine congrArg _ ?_
  refine congrArg (fun z => ix2 z k) (Fin.ext ?_)
  show 133 + min d (6 - 1) = min (133 + d) (139 - 1)
  omega

/-! ## The stored tile at an index -/

/-- Entry (p, q, k) of the tile stored at point `t` is the encoding at positions (I, J), channel k, where I and J are
    the tile's row and column offsets plus p and q. -/
theorem tile_apply (c : Dev nD) (t : Fin cfg0.N) (p q k : Fin 128) (I J : Fin 1024)
    (hI : I.val = win0_11.index t (1 : Fin 4) * 128 + p.val) (hJ : J.val = win0_11.index t (2 : Fin 4) * 128 + q.val) :
    outsAt (F := Ideal) m c t (ix4 (0 : Fin 1) p q k) = enc (V m c main_arg0) (V m c main_arg1) (V m c main_arg2) (V m c main_arg3) (V m c main_arg4) (V m c main_arg5) I J k := by
  unfold outsAt
  rw [outBlk_eq]
  refine (PayValue.pay_apply (iblk m c 0 t) (iblk m c 1 t) (iblk m c 2 t) (iblk m c 3 t) (iblk m c 4 t) (iblk m c 5 t)
    (iblk m c 6 t) (iblk m c 7 t) (iblk m c 8 t) (iblk m c 9 t) (View.ld (iblk m c 10 t) rSeq) (View.ld (iblk m c 10 t) rTok)
    (View.ld (iblk m c 10 t) rEnt) (View.ld (iblk m c 10 t) rSym) p q k).trans ?_
  rw [blk_0 m c t p I hI, blk_1 m c t q J hJ, blk_2 m c t p I hI, blk_3 m c t q J hJ, blk_4 m c t p I hI, blk_5 m c t q J hJ,
    blk_6 m c t p I hI, blk_7 m c t q J hJ, blk_8 m c t p I hI, blk_9 m c t q J hJ]
  rw [row_seq m c t _ (ClassFacts.clsWide_le _ _ _) k, row_tok m c t _ (ClassFacts.clsWide_le _ _ _) k,
    row_sym m c t _ (ClassFacts.clsNarrow_le _ _ _) k, tbl_ent m c t k]
  rfl

/-! ## The write-backs and the array -/

/-- What point `t` writes back is its block of the encoding of the argument arrays. -/
theorem flushed_eq (c : Dev nD) (t : Fin cfg0.N) :
    (dats m 0 c).flushed 11 t = ((cfg0.win 11).blk t).view.read (Elt Ideal) (encArr (V m c main_arg0) (V m c main_arg1) (V m c main_arg2) (V m c main_arg3) (V m c main_arg4) (V m c main_arg5)) := by
  show (cfg0.win 11).cut (grid0.coords t) ((dats m 0 c).after 11 t) = _
  rw [after_11]
  funext j
  obtain ⟨o0, o1, o2, o3⟩ := idxO t
  have hj1 : (j 1).val < 128 := (j 1).isLt
  have hj2 : (j 2).val < 128 := (j 2).isLt
  have hj3 : (j 3).val < 128 := (j 3).isLt
  have hj0 : (j 0).val < 1 := (j 0).isLt
  have ej : j = ix4 (0 : Fin 1) (⟨(j 1).val, hj1⟩ : Fin 128) (⟨(j 2).val, hj2⟩ : Fin 128) (⟨(j 3).val, hj3⟩ : Fin 128) := by
    funext a; apply Fin.ext
    match a with
    | ⟨0, _⟩ => show (j 0).val = 0; omega
    | ⟨1, _⟩ => rfl
    | ⟨2, _⟩ => rfl
    | ⟨3, _⟩ => rfl
  show outsAt (F := Ideal) m c t j = encArr (V m c main_arg0) (V m c main_arg1) (V m c main_arg2) (V m c main_arg3) (V m c main_arg4) (V m c main_arg5) (((cfg0.win 11).blk t).view.emb j)
  rw [ej]
  refine (tile_apply m c t _ _ _ ⟨win0_11.index t (1 : Fin 4) * 128 + (j 1).val, by omega⟩
    ⟨win0_11.index t (2 : Fin 4) * 128 + (j 2).val, by omega⟩ rfl rfl).trans ?_
  unfold encArr
  dsimp only
  congr 1
  · apply Fin.ext
    show win0_11.index t (1 : Fin 4) * 128 + (j 1).val = win0_11.index t (1 : Fin 4) * 128 + 1 * (j 1).val
    omega
  · apply Fin.ext
    show win0_11.index t (2 : Fin 4) * 128 + (j 2).val = win0_11.index t (2 : Fin 4) * 128 + 1 * (j 2).val
    omega
  · apply Fin.ext
    show (j 3).val = win0_11.index t (3 : Fin 4) * 128 + 1 * (j 3).val
    omega

/-- An index of the result array is in point `t`'s block iff each coordinate is in the block's range on its axis. -/
theorem mem_blk (t : Fin cfg0.N) (i : S1x1024x1024x128.Idx) :
    i ∈ ((cfg0.win 11).blk t).view.set ↔ ∀ a : Fin 4, win0_11.index t a * S1x128x128x128.size a ≤ (i a).val
      ∧ (i a).val < win0_11.index t a * S1x128x128x128.size a + S1x128x128x128.size a := by
  show i ∈ ((View.whole main_v0).slice (win0_11.rect t)).set ↔ _
  rw [View.set_slice_whole, Rect.mem_set_unit]
  exact Iff.rfl

/-- Every index of the result array is in some point's block: the tile of rows ⌊i₁/128⌋ and columns ⌊i₂/128⌋. -/
theorem covered (i : S1x1024x1024x128.Idx) :
    ∃ t : Fin cfg0.N, (cfg0.win 11).flush t = true ∧ i ∈ ((cfg0.win 11).blk t).view.set := by
  have h0 : (i 0).val < 1 := (i 0).isLt
  have h1 : (i 1).val < 1024 := (i 1).isLt
  have h2 : (i 2).val < 1024 := (i 2).isLt
  have h3 : (i 3).val < 128 := (i 3).isLt
  obtain ⟨t, ht⟩ := idx_onto ⟨(i 1).val / 128, by omega⟩ ⟨(i 2).val / 128, by omega⟩
  have q0 : win0_11.index t (0 : Fin 4) = 0 := congrFun ht 0
  have q1 : win0_11.index t (1 : Fin 4) = (i 1).val / 128 := congrFun ht 1
  have q2 : win0_11.index t (2 : Fin 4) = (i 2).val / 128 := congrFun ht 2
  have q3 : win0_11.index t (3 : Fin 4) = 0 := congrFun ht 3
  refine ⟨t, flush0_11 t, ?_⟩
  rw [mem_blk]
  intro a
  match a with
  | ⟨0, _⟩ => show win0_11.index t (0 : Fin 4) * 1 ≤ (i 0).val ∧ (i 0).val < win0_11.index t (0 : Fin 4) * 1 + 1; omega
  | ⟨1, _⟩ => show win0_11.index t (1 : Fin 4) * 128 ≤ (i 1).val ∧ (i 1).val < win0_11.index t (1 : Fin 4) * 128 + 128; omega
  | ⟨2, _⟩ => show win0_11.index t (2 : Fin 4) * 128 ≤ (i 2).val ∧ (i 2).val < win0_11.index t (2 : Fin 4) * 128 + 128; omega
  | ⟨3, _⟩ => show win0_11.index t (3 : Fin 4) * 128 ≤ (i 3).val ∧ (i 3).val < win0_11.index t (3 : Fin 4) * 128 + 128; omega

/-- The result array after the run is the encoding of the argument arrays. -/
theorem final (c : Dev nD) : (dats m 0 c).arrAt 11 cfg0.N = encArr (V m c main_arg0) (V m c main_arg1) (V m c main_arg2) (V m c main_arg3) (V m c main_arg4) (V m c main_arg5) :=
  (dats m 0 c).arrAt_eq_of_cover 11 _ (fun t _ => flushed_eq m c t) covered

/-- The run, read: the result array ends at the encoding of the argument arrays, which end unchanged. -/
theorem run : θ_run defs (onTc (τ := τ) (main (F := Ideal))) ⟨m, fun _ => 0, ρ⟩ (fun r => ∀ c : Dev nD,
      r.2.mem ((c.tc : Thread nD τ).loc main_v0) = encArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (final m c), (h c).2⟩) (run_named m ρ)

end Cert.KernelIdeal.Val

end
-- ==== Proof.RefValue.lean ====
/-
  The reference, read index by index, is the relative-position encoding of the specification.

  The reference forms, for every pair of positions (i, j), three class words — each a clipped and shifted signed
  difference of two features, or a default class when a gate bit is clear —, adds a row offset (0, 66, 133) to each,
  wraps a negative sum around the table's height, and gathers that row of the 139 x 128 weight table; it adds the three
  gathered rows and, scaled by the "same entity" bit, row 132. Read at an index (0, i, j, k) every stage is a function of
  the features at positions i and j and of the table's column k: the class words are the specification's, the wrapped
  row words read signed are offset + class (a row of the table, so the gather's clamp does nothing), and the four
  terms are the specification's four terms in another order of summation.

  The first part is general: a gather of whole rows of an N x C table by an [A, I, J, 1] array of start words, read at
  an index.
-/
import proofs.«416035_j8624294330880_2_alg».proof.Proof.Gen.ReferenceIdeal.Read
import proofs.«416035_j8624294330880_2_alg».proof.Proof.Spec
import proofs.«416035_j8624294330880_2_alg».proof.Proof.ClassFacts
import Idealize.ShloMosaic.Lib.ValueIdx
import Mathlib.Algebra.Group.Basic

noncomputable section

namespace Cert.Proof.RefValue

open Idealize.ShloMosaic Idealize.ShloMosaic.ValueIdx Cert.Proof.Spec

/-! ## A row gather read at an index

The operand is an N x C table, the start indices an [A, I, J, 1] array of words, the result [A, I, J, C]: result axis 3
is the one offset axis (it runs over a row's C columns), operand axis 0 is collapsed and is the one axis a start index
names, the index vector lies on axis 3 of the start indices, and a slice is one whole row. Result element (a, i, j, k)
is the table at row "start word at (a, i, j, 0), read signed and clamped to [0, N - 1]", column k. -/

section RowGather
variable {α : Type}

/-- The operand's row coordinate: the clamped start word (no batching axes; axis 0 is collapsed, so no offset). -/
theorem rows_axis0 {N C A I J w : Nat}
    (d : GatherDims ⟨2, ![N, C]⟩ ⟨4, ![A, I, J, 1]⟩ ⟨4, ![A, I, J, C]⟩)
    (hoff : d.offsetDims = [3]) (hcoll : d.collapsedSliceDims = [0]) (hob : d.operandBatchingDims = [])
    (hsb : d.startIndicesBatchingDims = []) (hmap : d.startIndexMap = [0]) (hiv : d.indexVectorDim = 3)
    (hss : d.sliceSizes = ![1, C])
    (idx : IVec ⟨4, ![A, I, J, 1]⟩ w) (a : Fin A) (i : Fin I) (j : Fin J) (k : Fin C) :
    (d.operandIdx (ix4 a i j k) idx 0).val = min (idx (ix4 a i j (0 : Fin 1))).toInt.toNat (N - 1) := by
  obtain ⟨od, cd, ob, sb, sm, iv, ss, wf⟩ := d
  dsimp only at hoff hcoll hob hsb hmap hiv hss
  subst hoff hcoll hob hsb hmap hiv hss
  show GatherDims.start _ (ix4 a i j k) idx 0 + GatherDims.batchCoord _ (ix4 a i j k) 0
    + GatherDims.offCoord _ (ix4 a i j k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  -- the start word is read at the result's three batch coordinates, with 0 on the index vector's axis
  have hsi : ∀ c, GatherDims.siIdx (s := ⟨2, ![N, C]⟩) ⟨[3], [0], [], [], [0], 3, ![1, C], wf⟩ (ix4 a i j k) c
      = ix4 a i j (0 : Fin 1) := by
    intro c
    funext b; refine Fin.ext ?_
    match b with
    | ⟨0, _⟩ => rfl
    | ⟨1, _⟩ => rfl
    | ⟨2, _⟩ => rfl
    | ⟨3, _⟩ =>
      have hc : c.val < 1 := c.isLt
      show c.val = 0
      omega
  rw [hsi]
  rfl

/-- The operand's column coordinate: the result's coordinate on its offset axis (axis 1 is named by no start index). -/
theorem rows_axis1 {N C A I J w : Nat}
    (d : GatherDims ⟨2, ![N, C]⟩ ⟨4, ![A, I, J, 1]⟩ ⟨4, ![A, I, J, C]⟩)
    (hoff : d.offsetDims = [3]) (hcoll : d.collapsedSliceDims = [0]) (hob : d.operandBatchingDims = [])
    (hsb : d.startIndicesBatchingDims = []) (hmap : d.startIndexMap = [0]) (hiv : d.indexVectorDim = 3)
    (hss : d.sliceSizes = ![1, C])
    (idx : IVec ⟨4, ![A, I, J, 1]⟩ w) (a : Fin A) (i : Fin I) (j : Fin J) (k : Fin C) :
    (d.operandIdx (ix4 a i j k) idx 1).val = k.val := by
  obtain ⟨od, cd, ob, sb, sm, iv, ss, wf⟩ := d
  dsimp only at hoff hcoll hob hsb hmap hiv hss
  subst hoff hcoll hob hsb hmap hiv hss
  show GatherDims.start _ (ix4 a i j k) idx 1 + GatherDims.batchCoord _ (ix4 a i j k) 1
    + GatherDims.offCoord _ (ix4 a i j k) 1 = _
  rw [GatherDims.batchCoord_eq_zero _ _ _ List.not_mem_nil]
  unfold GatherDims.start
  rw [dif_neg (fun h => absurd (congrArg Fin.val (List.mem_singleton.mp h)) Nat.one_ne_zero)]
  unfold GatherDims.offCoord
  rw [dif_pos ((GatherDims.mem_sKept _ _).mpr
    ⟨fun h => absurd (congrArg Fin.val (List.mem_singleton.mp h)) Nat.one_ne_zero, List.not_mem_nil⟩)]
  simp only [Nat.zero_add]
  rfl

/-- THE ROW GATHER READ AT (a, i, j, k): the table at the start word of (a, i, j), read signed and clamped into
    [0, N - 1], column k. -/
theorem gather_rows4_clamp {N C A I J w : Nat} (hN : 0 < N)
    (d : GatherDims ⟨2, ![N, C]⟩ ⟨4, ![A, I, J, 1]⟩ ⟨4, ![A, I, J, C]⟩)
    (hoff : d.offsetDims = [3]) (hcoll : d.collapsedSliceDims = [0]) (hob : d.operandBatchingDims = [])
    (hsb : d.startIndicesBatchingDims = []) (hmap : d.startIndexMap = [0]) (hiv : d.indexVectorDim = 3)
    (hss : d.sliceSizes = ![1, C])
    (x : (⟨2, ![N, C]⟩ : Shape).Idx → α) (idx : IVec ⟨4, ![A, I, J, 1]⟩ w)
    (a : Fin A) (i : Fin I) (j : Fin J) (k : Fin C) :
    Host.gather d x idx (ix4 a i j k)
      = x (ix2 (⟨min (idx (ix4 a i j (0 : Fin 1))).toInt.toNat (N - 1), by omega⟩ : Fin N) k) := by
  unfold Host.gather
  congr 1
  funext b
  refine Fin.ext ?_
  match b with
  | ⟨0, _⟩ => exact rows_axis0 d hoff hcoll hob hsb hmap hiv hss idx a i j k
  | ⟨1, _⟩ => exact rows_axis1 d hoff hcoll hob hsb hmap hiv hss idx a i j k

/-- When the start word read signed is a row n of the table, the clamp does nothing: the gather reads row n. -/
theorem gather_rows4_apply {N C A I J w : Nat}
    (d : GatherDims ⟨2, ![N, C]⟩ ⟨4, ![A, I, J, 1]⟩ ⟨4, ![A, I, J, C]⟩)
    (hoff : d.offsetDims = [3]) (hcoll : d.collapsedSliceDims = [0]) (hob : d.operandBatchingDims = [])
    (hsb : d.startIndicesBatchingDims = []) (hmap : d.startIndexMap = [0]) (hiv : d.indexVectorDim = 3)
    (hss : d.sliceSizes = ![1, C])
    (x : (⟨2, ![N, C]⟩ : Shape).Idx → α) (idx : IVec ⟨4, ![A, I, J, 1]⟩ w)
    (a : Fin A) (i : Fin I) (j : Fin J) (k : Fin C)
    (n : Fin N) (hn : (idx (ix4 a i j (0 : Fin 1))).toInt = (n.val : Int)) :
    Host.gather d x idx (ix4 a i j k) = x (ix2 n k) := by
  rw [gather_rows4_clamp (Fin.pos n) d hoff hcoll hob hsb hmap hiv hss x idx a i j k]
  congr 2
  refine Fin.ext ?_
  show min (idx (ix4 a i j (0 : Fin 1))).toInt.toNat (N - 1) = n.val
  rw [hn, Int.toNat_natCast]
  have := n.isLt
  omega

end RowGather

/-! ## The reference's stages at an index -/

open Cert.ReferenceIdeal Cert.ReferenceIdeal.Gen Cert.ReferenceIdeal.Read

/-- A feature row as the reference's stages take it. -/
abbrev RFeat : Type := (⟨S1x1024, .i32⟩ : BufTy).Contents (Elt Ideal)
/-- The weight table as the reference's stages take it. -/
abbrev RTbl : Type := (⟨S139x128, .f32⟩ : BufTy).Contents (Elt Ideal)

/-! ### A feature laid along the rows and along the columns of the pair grid

Each feature f is broadcast twice to the [1, 1024, 1024] grid of pairs: once constant along the columns (position i)
and once constant along the rows (position j). -/

section Pairs
variable (f : RFeat) (a : Fin 1) (i j : Fin 1024)

theorem v2_at : val_main_v2 (F := Ideal) f (ix3 a i j) = f (ix2 (0 : Fin 1) i) := by
  rw [val_main_v2_apply, val_main_v0_apply]
  exact congrArg f (funext fun b => match b with | ⟨0, _⟩ => rfl | ⟨1, _⟩ => rfl)
theorem v3_at : val_main_v3 (F := Ideal) f (ix3 a i j) = f (ix2 (0 : Fin 1) j) := by
  rw [val_main_v3_apply, val_main_v1_apply]
  exact congrArg f (funext fun b => match b with | ⟨0, _⟩ => rfl | ⟨1, _⟩ => rfl)
theorem v7_at : val_main_v7 (F := Ideal) f (ix3 a i j) = f (ix2 (0 : Fin 1) i) := by
  rw [val_main_v7_apply, val_main_v5_apply]
  exact congrArg f (funext fun b => match b with | ⟨0, _⟩ => rfl | ⟨1, _⟩ => rfl)
theorem v8_at : val_main_v8 (F := Ideal) f (ix3 a i j) = f (ix2 (0 : Fin 1) j) := by
  rw [val_main_v8_apply, val_main_v6_apply]
  exact congrArg f (funext fun b => match b with | ⟨0, _⟩ => rfl | ⟨1, _⟩ => rfl)
theorem v12_at : val_main_v12 (F := Ideal) f (ix3 a i j) = f (ix2 (0 : Fin 1) i) := by
  rw [val_main_v12_apply, val_main_v10_apply]
  exact congrArg f (funext fun b => match b with | ⟨0, _⟩ => rfl | ⟨1, _⟩ => rfl)
theorem v13_at : val_main_v13 (F := Ideal) f (ix3 a i j) = f (ix2 (0 : Fin 1) j) := by
  rw [val_main_v13_apply, val_main_v11_apply]
  exact congrArg f (funext fun b => match b with | ⟨0, _⟩ => rfl | ⟨1, _⟩ => rfl)
theorem v17_at : val_main_v17 (F := Ideal) f (ix3 a i j) = f (ix2 (0 : Fin 1) i) := by
  rw [val_main_v17_apply, val_main_v15_apply]
  exact congrArg f (funext fun b => match b with | ⟨0, _⟩ => rfl | ⟨1, _⟩ => rfl)
theorem v18_at : val_main_v18 (F := Ideal) f (ix3 a i j) = f (ix2 (0 : Fin 1) j) := by
  rw [val_main_v18_apply, val_main_v16_apply]
  exact congrArg f (funext fun b => match b with | ⟨0, _⟩ => rfl | ⟨1, _⟩ => rfl)
theorem v27_at : val_main_v27 (F := Ideal) f (ix3 a i j) = f (ix2 (0 : Fin 1) i) := by
  rw [val_main_v27_apply, val_main_v25_apply]
  exact congrArg f (funext fun b => match b with | ⟨0, _⟩ => rfl | ⟨1, _⟩ => rfl)
theorem v28_at : val_main_v28 (F := Ideal) f (ix3 a i j) = f (ix2 (0 : Fin 1) j) := by
  rw [val_main_v28_apply, val_main_v26_apply]
  exact congrArg f (funext fun b => match b with | ⟨0, _⟩ => rfl | ⟨1, _⟩ => rfl)
theorem v36_at : val_main_v36 (F := Ideal) f (ix3 a i j) = f (ix2 (0 : Fin 1) i) := by
  rw [val_main_v36_apply, val_main_v34_apply]
  exact congrArg f (funext fun b => match b with | ⟨0, _⟩ => rfl | ⟨1, _⟩ => rfl)
theorem v37_at : val_main_v37 (F := Ideal) f (ix3 a i j) = f (ix2 (0 : Fin 1) j) := by
  rw [val_main_v37_apply, val_main_v35_apply]
  exact congrArg f (funext fun b => match b with | ⟨0, _⟩ => rfl | ⟨1, _⟩ => rfl)

end Pairs

/-! ### The three class words -/

section Classes
variable (idx col sym ent tok : RFeat) (a : Fin 1) (i j : Fin 1024)

/-- The sequence class: the clipped, shifted difference of the sequence indices, gated by "same colour". -/
theorem seq_class : val_main_v23 (F := Ideal) idx col (ix3 a i j) = dSeq idx col i j := by
  simp only [val_main_v23_apply, val_main_v9_apply, v7_at, v8_at, val_main_v22_apply, val_main_v20_apply,
    val_main_call0_v4_apply, val_main_call0_v3_apply, val_main_c_0_apply, val_main_call0_v2_apply,
    val_main_call0_v1_apply, val_main_call0_v0_apply, val_main_c_apply, val_main_v19_apply, v17_at, v18_at,
    val_main_v21_apply, val_main_c_1_apply, val_main_call1_v1_apply, val_main_call1_v0_apply, val_main_c_2_apply]
  rfl

/-- The token class: the clipped, shifted difference of the token indices, gated by "same colour and same sequence
    index". -/
theorem tok_class : val_main_v33 (F := Ideal) idx col tok (ix3 a i j) = dTok idx col tok i j := by
  simp only [val_main_v33_apply, val_main_v24_apply, val_main_v9_apply, v7_at, v8_at, val_main_v4_apply, v2_at, v3_at,
    val_main_v32_apply, val_main_v30_apply, val_main_call2_v4_apply, val_main_call2_v3_apply, val_main_c_4_apply,
    val_main_call2_v2_apply, val_main_call2_v1_apply, val_main_call2_v0_apply, val_main_c_3_apply,
    val_main_v29_apply, v27_at, v28_at, val_main_v31_apply, val_main_c_5_apply, val_main_call3_v1_apply,
    val_main_call3_v0_apply, val_main_c_6_apply]
  rfl

/-- The symmetry class: the clipped, shifted difference of the symmetry indices, gated by "same entity". -/
theorem sym_class : val_main_v42 (F := Ideal) sym ent (ix3 a i j) = dSym ent sym i j := by
  simp only [val_main_v42_apply, val_main_v14_apply, v12_at, v13_at, val_main_v41_apply, val_main_v39_apply,
    val_main_call4_v4_apply, val_main_call4_v3_apply, val_main_c_8_apply, val_main_call4_v2_apply,
    val_main_call4_v1_apply, val_main_call4_v0_apply, val_main_c_7_apply, val_main_v38_apply, v36_at, v37_at,
    val_main_v40_apply, val_main_c_9_apply, val_main_call5_v1_apply, val_main_call5_v0_apply, val_main_c_10_apply]
  rfl

theorem dSeq_le : (dSeq idx col i j).toNat ≤ 65 := ClassFacts.clsWide_le _ _ _
theorem dTok_le : (dTok idx col tok i j).toNat ≤ 65 := ClassFacts.clsWide_le _ _ _
theorem dSym_le : (dSym ent sym i j).toNat ≤ 5 := ClassFacts.clsNarrow_le _ _ _

end Classes

/-! ### The row words: offset + class, wrapped, read signed

Each class word gets its row offset (0, 66, 133) added; a negative sum would be wrapped around by the table's height.
Offset + class is a row of the table, so the wrapped word read signed is that row. -/

section Words
variable (idx col sym ent tok : RFeat) (a : Fin 1) (i j : Fin 1024)

/-- The [1, 1024, 1024, 1] array of start words reads the pair grid at (0, i, j). -/
theorem idx50_at : idx_main_v50 (ix4 a i j (0 : Fin 1)) = ix3 (0 : Fin 1) i j :=
  funext fun b => match b with | ⟨0, _⟩ => rfl | ⟨1, _⟩ => rfl | ⟨2, _⟩ => rfl
theorem idx59_at : idx_main_v59 (ix4 a i j (0 : Fin 1)) = ix3 (0 : Fin 1) i j :=
  funext fun b => match b with | ⟨0, _⟩ => rfl | ⟨1, _⟩ => rfl | ⟨2, _⟩ => rfl
theorem idx78_at : idx_main_v78 (ix4 a i j (0 : Fin 1)) = ix3 (0 : Fin 1) i j :=
  funext fun b => match b with | ⟨0, _⟩ => rfl | ⟨1, _⟩ => rfl | ⟨2, _⟩ => rfl

/-- The sequence row word, read signed, is the sequence class. -/
theorem seq_word :
    (val_main_v50 (F := Ideal) idx col (ix4 a i j (0 : Fin 1))).toInt = (((dSeq idx col i j).toNat : Nat) : Int) := by
  rw [val_main_v50_apply, idx50_at]
  simp only [val_main_v49_apply, val_main_v46_apply, val_main_v48_apply, val_main_v44_apply, val_main_v43_apply,
    val_main_c_11_apply, val_main_v45_apply, val_main_c_12_apply, val_main_v47_apply, val_main_c_13_apply, seq_class]
  have h := dSeq_le idx col i j
  refine (ClassFacts.norm_row 0#32 (dSeq idx col i j) (by simp only [BitVec.toNat_ofNat]; omega)).trans ?_
  simp only [BitVec.toNat_ofNat]
  omega

/-- The token row word, read signed, is 66 + the token class. -/
theorem tok_word :
    (val_main_v59 (F := Ideal) idx col tok (ix4 a i j (0 : Fin 1))).toInt
      = ((66 + (dTok idx col tok i j).toNat : Nat) : Int) := by
  rw [val_main_v59_apply, idx59_at]
  simp only [val_main_v58_apply, val_main_v55_apply, val_main_v57_apply, val_main_v53_apply, val_main_v52_apply,
    val_main_c_14_apply, val_main_v54_apply, val_main_c_15_apply, val_main_v56_apply, val_main_c_16_apply, tok_class]
  have h := dTok_le idx col tok i j
  refine (ClassFacts.norm_row 66#32 (dTok idx col tok i j) (by simp only [BitVec.toNat_ofNat]; omega)).trans ?_
  simp only [BitVec.toNat_ofNat]

/-- The symmetry row word, read signed, is 133 + the symmetry class. -/
theorem sym_word :
    (val_main_v78 (F := Ideal) sym ent (ix4 a i j (0 : Fin 1))).toInt
      = ((133 + (dSym ent sym i j).toNat : Nat) : Int) := by
  rw [val_main_v78_apply, idx78_at]
  simp only [val_main_v77_apply, val_main_v74_apply, val_main_v76_apply, val_main_v72_apply, val_main_v71_apply,
    val_main_c_17_apply, val_main_v73_apply, val_main_c_18_apply, val_main_v75_apply, val_main_c_19_apply, sym_class]
  have h := dSym_le sym ent i j
  refine (ClassFacts.norm_row 133#32 (dSym ent sym i j) (by simp only [BitVec.toNat_ofNat]; omega)).trans ?_
  simp only [BitVec.toNat_ofNat]

end Words

/-! ### The three gathered rows -/

section Rows
variable (idx col sym ent tok : RFeat) (W : RTbl) (a : Fin 1) (i j : Fin 1024) (k : Fin 128)

/-- A row of the specification that is in range is the table's row: the clamp does nothing. -/
theorem rowOf_of_le (n : Nat) (hn : n ≤ 138) :
    rowOf 139 (by decide) W n k = W (ix2 (⟨n, by omega⟩ : Fin 139) k) := by
  unfold rowOf
  congr 2
  exact Fin.ext (Nat.min_eq_left hn)

/-- The sequence term: row (sequence class). -/
theorem seq_row :
    val_main_v51 (F := Ideal) idx col W (ix4 a i j k) = rowOf 139 (by decide) W (dSeq idx col i j).toNat k := by
  have h := dSeq_le idx col i j
  rw [rowOf_of_le W k _ (by omega)]
  unfold val_main_v51
  exact gather_rows4_apply (N := 139) (C := 128) (A := 1) (I := 1024) (J := 1024)
    gather_S139x128_S1x1024x1024x1_S1x1024x1024x128_3_0_n_n_0_3_1128 rfl rfl rfl rfl rfl rfl rfl
    W (val_main_v50 (F := Ideal) idx col) a i j k ⟨(dSeq idx col i j).toNat, by omega⟩ (seq_word idx col a i j)

/-- The token term: row 66 + (token class). -/
theorem tok_row :
    val_main_v60 (F := Ideal) idx col tok W (ix4 a i j k)
      = rowOf 139 (by decide) W (66 + (dTok idx col tok i j).toNat) k := by
  have h := dTok_le idx col tok i j
  rw [rowOf_of_le W k _ (by omega)]
  unfold val_main_v60
  exact gather_rows4_apply (N := 139) (C := 128) (A := 1) (I := 1024) (J := 1024)
    gather_S139x128_S1x1024x1024x1_S1x1024x1024x128_3_0_n_n_0_3_1128 rfl rfl rfl rfl rfl rfl rfl
    W (val_main_v59 (F := Ideal) idx col tok) a i j k ⟨66 + (dTok idx col tok i j).toNat, by omega⟩
    (tok_word idx col tok a i j)

/-- The symmetry term: row 133 + (symmetry class). -/
theorem sym_row :
    val_main_v79 (F := Ideal) sym ent W (ix4 a i j k)
      = rowOf 139 (by decide) W (133 + (dSym ent sym i j).toNat) k := by
  have h := dSym_le sym ent i j
  rw [rowOf_of_le W k _ (by omega)]
  unfold val_main_v79
  exact gather_rows4_apply (N := 139) (C := 128) (A := 1) (I := 1024) (J := 1024)
    gather_S139x128_S1x1024x1024x1_S1x1024x1024x128_3_0_n_n_0_3_1128 rfl rfl rfl rfl rfl rfl rfl
    W (val_main_v78 (F := Ideal) sym ent) a i j k ⟨133 + (dSym ent sym i j).toNat, by omega⟩
    (sym_word sym ent a i j)

/-- The entity term: the "same entity" bit as a float, times row 132 (a one-row slice of the table, flattened and laid
    along the channel axis). -/
theorem gate_term :
    val_main_v69 (F := Ideal) ent W (ix4 a i j k)
      = boolE (eqb (at1 ent i) (at1 ent j)) * W (ix2 (132 : Fin 139) k) := by
  have hg : idx_main_v62 (idx_main_v67 (ix4 a i j k)) = ix3 (0 : Fin 1) i j :=
    funext fun b => match b with | ⟨0, _⟩ => rfl | ⟨1, _⟩ => rfl | ⟨2, _⟩ => rfl
  have hw : idx_main_v64 (idx_main_v65 (idx_main_v66 (idx_main_v68 (ix4 a i j k)))) = ix2 (132 : Fin 139) k :=
    funext fun b => match b with
      | ⟨0, _⟩ => Fin.ext rfl
      | ⟨1, _⟩ => Fin.ext (Nat.mod_eq_of_lt k.isLt)
  rw [val_main_v69_apply, val_main_v67_apply, val_main_v63_apply, val_main_v62_apply, hg, val_main_v14_apply,
    v12_at, v13_at, val_main_v68_apply, val_main_v66_apply, val_main_v65_apply, val_main_v64_apply, hw,
    ClassFacts.uitofp_bit]
  rfl

end Rows

/-! ## The reference is the encoding -/

/-- The reference's result, as a function of its six arguments, is the specification's encoding array. The reference
    sums ((sequence + token) + entity) + symmetry, the specification ((sequence + token) + symmetry) + entity. -/
theorem ref_is_enc (idx col sym ent tok : RFeat) (W : RTbl) :
    val_main_v80 (F := Ideal) idx col sym ent tok W = encArr idx col sym ent tok W := by
  funext y
  obtain ⟨a, i, j, k, rfl⟩ : ∃ (a : Fin 1) (i : Fin 1024) (j : Fin 1024) (k : Fin 128), y = ix4 a i j k :=
    ⟨y 0, y 1, y 2, y 3, eq_ix4 y⟩
  rw [val_main_v80_apply, val_main_v70_apply, val_main_v61_apply, seq_row, tok_row, gate_term, sym_row]
  simp only [Ideal.addf_def]
  show _ = enc idx col sym ent tok W i j k
  unfold enc
  exact add_right_comm _ _ _

/-- The same over a run: the value the reference's run names as its result is the encoding of the six argument
    buffers. -/
theorem res_is_enc (m : (ℓ : Loc nD τ sig) → Buf (Elt Ideal) ℓ) (c : Dev nD) :
    Cert.ReferenceIdeal.Value.res_main_v80 m c
      = encArr (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  rw [val_main_v80_eq]
  exact ref_is_enc _ _ _ _ _ _

end Cert.Proof.RefValue

end
-- ==== Proof.lean ====
/-
  The relative-position encoding: a Pallas kernel over 128 × 128 tiles of the pairwise plane against its jnp reference.

  Both compute, for every pair of positions (i, j) and channel k,
      W[dseq(i,j), k] + W[66 + dtok(i,j), k] + W[133 + dsym(i,j), k] + [entity i = entity j] · W[132, k]
  where dseq, dtok, dsym are clipped, shifted signed differences of integer features (or a default class when a gate of
  feature equalities is clear). The reference gathers the rows of W; the kernel forms a one-hot vector of each class and
  multiplies it with the rows' range, which at the extended reals is the same row because a class index is always in
  its range. The two programs add the four terms in different groupings; addition of extended reals is commutative and
  associative, so no finiteness of W is used.

  The three frames: the two kernel programs through the launch of a pipeline whose input windows share arrays (each
  integer argument is passed twice, blocked by row and by column), the reference through its run. The ideal pass
  rewrote nothing, so the idealization claim is trivial.
-/
import proofs.«416035_j8624294330880_2_alg».proof.Defs
import proofs.«416035_j8624294330880_2_alg».proof.Proof.Gen.Kernel
import proofs.«416035_j8624294330880_2_alg».proof.Proof.Gen.KernelIdeal
import proofs.«416035_j8624294330880_2_alg».proof.Proof.Gen.ReferenceIdeal
import proofs.«416035_j8624294330880_2_alg».proof.Proof.Gen.Pre_finite_inputs
import proofs.«416035_j8624294330880_2_alg».proof.Proof.Gen.ReferenceIdeal.Run
import proofs.«416035_j8624294330880_2_alg».proof.Proof.Gen.ReferenceIdeal.Read
import proofs.«416035_j8624294330880_2_alg».proof.Proof.KernelFrame
import proofs.«416035_j8624294330880_2_alg».proof.Proof.KernelValue
import proofs.«416035_j8624294330880_2_alg».proof.Proof.RefValue
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Frm.frame (F := Bits) m ρ

/-- So does the idealized kernel program. -/
theorem frame_ki : Cert.frame_KernelIdeal := fun m ρ _ => Cert.KernelIdeal.Frm.frame (F := Ideal) m ρ

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the encoding of the (agreeing) argument arrays in their result. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.Proof.RefValue.res_is_enc, (hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
